-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x50000x128 : Shape := ⟨3, ![1, 50000, 128]⟩
abbrev S1x50000x2 : Shape := ⟨3, ![1, 50000, 2]⟩
abbrev S2x800000 : Shape := ⟨2, ![2, 800000]⟩
abbrev S258x128 : Shape := ⟨2, ![258, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S1x50000x128 : S_.BroadcastsInDim S1x50000x128 (![] : Fin 0 → Fin S1x50000x128.rank)
  reducesTo_S1x50000x128_S_d0_1_2 : S1x50000x128.ReducesTo [0, 1, 2] S_
  h_S_ : 0 < S_.numel
  bcast_S_S1x50000x2 : S_.BroadcastsInDim S1x50000x2 (![] : Fin 0 → Fin S1x50000x2.rank)
  reducesTo_S1x50000x2_S_d0_1_2 : S1x50000x2.ReducesTo [0, 1, 2] S_
  bcast_S_S258x128 : S_.BroadcastsInDim S258x128 (![] : Fin 0 → Fin S258x128.rank)
  reducesTo_S258x128_S_d0_1 : S258x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_v28 : IVec S_ 1) (main_v33 : IVec S2x800000 1) : IVec S_ 1 :=
  let main_c_12 : IVec S_ 1 := constantI S_ 1 1#1
  let main_v34 : IVec S_ 1 := (fun x v => Host.reduce IntOp.andi x v reducesTo_S2x800000_S_d0_1 h_S_) main_v33 main_c_12
  let main_v35 : IVec S_ 1 := andi main_v28 main_v34
  main_v35

def fn_part1 {F : FTy → Type} [FloatOps F] (main_arg2 : IVec S2x800000 32) (main_arg5 : FVec F S128x1 .f32) (main_arg6 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg5
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S2x800000 32 := broadcastInDim S2x800000 ![] bcast_S_S2x800000 main_c_10
  let main_v30 : IVec S2x800000 1 := cmpi .sge main_arg2 main_v29
  let main_c_11 : IVec S_ 32 := constantI S_ 32 50000#32
  let main_v31 : IVec S2x800000 32 := broadcastInDim S2x800000 ![] bcast_S_S2x800000 main_c_11
  let main_v32 : IVec S2x800000 1 := cmpi .slt main_arg2 main_v31
  let main_v33 : IVec S2x800000 1 := andi main_v30 main_v32
  fn_part2 (F := F) main_v28 main_v33

def fn {F : FTy → Type} [FloatOps F] (main_arg0 : FVec F S1x50000x128 .f32) (main_arg1 : FVec F S1x50000x2 .f32) (main_arg2 : IVec S2x800000 32) (main_arg3 : FVec F S258x128 .f32) (main_arg4 : FVec F S128 .f32) (main_arg5 : FVec F S128x1 .f32) (main_arg6 : FVec F S1 .f32) : IVec S_ 1 :=
  let main_v0 : FVec F S1x50000x128 .f32 := Host.absf main_arg0
  let main_cst : FVec F S_ .f32 := constant S_ .f32 0x7F800000#32
  let main_v1 : FVec F S1x50000x128 .f32 := broadcastInDim S1x50000x128 ![] bcast_S_S1x50000x128 main_cst
  let main_v2 : IVec S1x50000x128 1 := cmpf .olt main_v0 main_v1
  let main_c : IVec S_ 1 := constantI S_ 1 1#1
  let main_v3 : IVec S_ 1 := (fun x v => Host.reduce IntOp.andi x v reducesTo_S1x50000x128_S_d0_1_2 h_S_) main_v2 main_c
  let main_v4 : FVec F S1x50000x2 .f32 := Host.absf main_arg1
  let main_cst_0 : FVec F S_ .f32 := constant S_ .f32 0x7F800000#32
  let main_v5 : FVec F S1x50000x2 .f32 := broadcastInDim S1x50000x2 ![] bcast_S_S1x50000x2 main_cst_0
  let main_v6 : IVec S1x50000x2 1 := cmpf .olt main_v4 main_v5
  let main_c_1 : IVec S_ 1 := constantI S_ 1 1#1
  let main_v7 : IVec S_ 1 := (fun x v => Host.reduce IntOp.andi x v reducesTo_S1x50000x2_S_d0_1_2 h_S_) main_v6 main_c_1
  let main_v8 : IVec S_ 1 := andi main_v3 main_v7
  let main_v9 : FVec F S258x128 .f32 := Host.absf main_arg3
  let main_cst_2 : FVec F S_ .f32 := constant S_ .f32 0x7F800000#32
  let main_v10 : FVec F S258x128 .f32 := broadcastInDim S258x128 ![] bcast_S_S258x128 main_cst_2
  let main_v11 : IVec S258x128 1 := cmpf .olt main_v9 main_v10
  let main_c_3 : IVec S_ 1 := constantI S_ 1 1#1
  let main_v12 : IVec S_ 1 := (fun x v => Host.reduce IntOp.andi x v reducesTo_S258x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_v13 main_v16
-- ==== Kernel.lean ====
abbrev S1x50000x128 : Shape := ⟨3, ![1, 50000, 128]⟩
abbrev S1x50000x2 : Shape := ⟨3, ![1, 50000, 2]⟩
abbrev S2x800000 : Shape := ⟨2, ![2, 800000]⟩
abbrev S258x128 : Shape := ⟨2, ![258, 128]⟩
abbrev S128 : Shape := ⟨1, ![128]⟩
abbrev S128x1 : Shape := ⟨2, ![128, 1]⟩
abbrev S1 : Shape := ⟨1, ![1]⟩
abbrev S50000x128 : Shape := ⟨2, ![50000, 128]⟩
abbrev S50000x2 : Shape := ⟨2, ![50000, 2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S800000x2 : Shape := ⟨2, ![800000, 2]⟩
abbrev S128x128 : Shape := ⟨2, ![128, 128]⟩
abbrev S1x128 : Shape := ⟨2, ![1, 128]⟩
abbrev S3200x128 : Shape := ⟨2, ![3200, 128]⟩
abbrev S3200x2 : Shape := ⟨2, ![3200, 2]⟩
abbrev S3200x1 : Shape := ⟨2, ![3200, 1]⟩
abbrev S3200 : Shape := ⟨1, ![3200]⟩
abbrev S1x800000x1 : Shape := ⟨3, ![1, 800000, 1]⟩

abbrev nBuf : Space → Nat
  | .hbm => 115
  | .vmem => 15
  | .smem => 0
  | _ => 0

abbrev bufTy : (tb : Table) → Fin (tcTables nBuf tb) → BufTy
  | .hbm, ⟨0, _⟩ => ⟨S1x50000x128, .f32⟩
  | .hbm, ⟨1, _⟩ => ⟨S1x50000x2, .f32⟩
  | .hbm, ⟨2, _⟩ => ⟨S2x800000, .i32⟩
  | .hbm, ⟨3, _⟩ => ⟨S258x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S50000x128, .f32⟩
  | .hbm, ⟨8, _⟩ => ⟨S50000x2, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S1, .i32⟩
  | .hbm, ⟨22, _⟩ => ⟨S_, .i32⟩
  | .hbm, ⟨23, _⟩ => ⟨S800000x1, .i32⟩
  | .hbm, ⟨24, _⟩ => ⟨S800000x1, .i1⟩
  | .hbm, ⟨25, _⟩ => ⟨S1x1, .i32⟩
  | .hbm, ⟨26, _⟩ => ⟨S800000x1, .i32⟩
  | .hbm, ⟨27, _⟩ => ⟨S800000x1, .i1⟩
  | .hbm, ⟨28, _⟩ => ⟨S800000x1, .i1⟩
  | .hbm, ⟨29, _⟩ => ⟨S_, .i1⟩
  | .hbm, ⟨30, _⟩ => ⟨S800000, .i1⟩
  | .hbm, ⟨31, _⟩ => ⟨S800000x128, .f32⟩
  | .hbm, ⟨32, _⟩ => ⟨S800000x128, .i1⟩
  | .hbm, ⟨33, _⟩ => ⟨S_, .f32⟩
  | .hbm, ⟨34, _⟩ => ⟨S800000x128, .f32⟩
  | .hbm, ⟨35, _⟩ => ⟨S800000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S1, .i32⟩
  | .hbm, ⟨45, _⟩ => ⟨S_, .i32⟩
  | .hbm, ⟨46, _⟩ => ⟨S800000x1, .i32⟩
  | .hbm, ⟨47, _⟩ => ⟨S800000x1, .i1⟩
  | .hbm, ⟨48, _⟩ => ⟨S1x1, .i32⟩
  | .hbm, ⟨49, _⟩ => ⟨S800000x1, .i32⟩
  | .hbm, ⟨50, _⟩ => ⟨S800000x1, .i1⟩
  | .hbm, ⟨51, _⟩ => ⟨S800000x1, .i1⟩
  | .hbm, ⟨52, _⟩ => ⟨S_, .i1⟩
  | .hbm, ⟨53, _⟩ => ⟨S800000, .i1⟩
  | .hbm, ⟨54, _⟩ => ⟨S800000x128, .f32⟩
  | .hbm, ⟨55, _⟩ => ⟨S800000x128, .i1⟩
  | .hbm, ⟨56, _⟩ => ⟨S_, .f32⟩
  | .hbm, ⟨57, _⟩ => ⟨S800000x128, .f32⟩
  | .hbm, ⟨58, _⟩ => ⟨S800000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S1, .i32⟩
  | .hbm, ⟨68, _⟩ => ⟨S_, .i32⟩
  | .hbm, ⟨69, _⟩ => ⟨S800000x1, .i32⟩
  | .hbm, ⟨70, _⟩ => ⟨S800000x1, .i1⟩
  | .hbm, ⟨71, _⟩ => ⟨S1x1, .i32⟩
  | .hbm, ⟨72, _⟩ => ⟨S800000x1, .i32⟩
  | .hbm, ⟨73, _⟩ => ⟨S800000x1, .i1⟩
  | .hbm, ⟨74, _⟩ => ⟨S800000x1, .i1⟩
  | .hbm, ⟨75, _⟩ => ⟨S_, .i1⟩
  | .hbm, ⟨76, _⟩ => ⟨S800000, .i1⟩
  | .hbm, ⟨77, _⟩ => ⟨S800000x2, .f32⟩
  | .hbm, ⟨78, _⟩ => ⟨S800000x2, .i1⟩
  | .hbm, ⟨79, _⟩ => ⟨S_, .f32⟩
  | .hbm, ⟨80, _⟩ => ⟨S800000x2, .f32⟩
  | .hbm, ⟨81, _⟩ => ⟨S800000x2, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S1, .i32⟩
  | .hbm, ⟨91, _⟩ => ⟨S_, .i32⟩
  | .hbm, ⟨92, _⟩ => ⟨S800000x1, .i32⟩
  | .hbm, ⟨93, _⟩ => ⟨S800000x1, .i1⟩
  | .hbm, ⟨94, _⟩ => ⟨S1x1, .i32⟩
  | .hbm, ⟨95, _⟩ => ⟨S800000x1, .i32⟩
  | .hbm, ⟨96, _⟩ => ⟨S800000x1, .i1⟩
  | .hbm, ⟨97, _⟩ => ⟨S800000x1, .i1⟩
  | .hbm, ⟨98, _⟩ => ⟨S_, .i1⟩
  | .hbm, ⟨99, _⟩ => ⟨S800000, .i1⟩
  | .hbm, ⟨100, _⟩ => ⟨S800000x2, .f32⟩
  | .hbm, ⟨101, _⟩ => ⟨S800000x2, .i1⟩
  | .hbm, ⟨102, _⟩ => ⟨S_, .f32⟩
  | .hbm, ⟨103, _⟩ => ⟨S800000x2, .f32⟩
  | .hbm, ⟨104, _⟩ => ⟨S800000x2, .f32⟩
  | .hbm, ⟨105, _⟩ => ⟨S800000x2, .f32⟩
  | .hbm, ⟨106, _⟩ => ⟨S128x128, .f32⟩
  | .hbm, ⟨107, _⟩ => ⟨S128x128, .f32⟩
  | .hbm, ⟨108, _⟩ => ⟨S1x128, .f32⟩
  | .hbm, ⟨109, _⟩ => ⟨S1x128, .f32⟩
  | .hbm, ⟨110, _⟩ => ⟨S1x128, .f32⟩
  | .hbm, ⟨111, _⟩ => ⟨S1x128, .f32⟩
  | .hbm, ⟨112, _⟩ => ⟨S1x1, .f32⟩
  | .hbm, ⟨113, _⟩ => ⟨S800000x1, .f32⟩
  | .hbm, ⟨114, _⟩ => ⟨S1x800000x1, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x2, .f32⟩
  | .local _ .vmem, ⟨5, _⟩ => ⟨S3200x2, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x1, .f32⟩
  | .local _ .vmem, ⟨13, _⟩ => ⟨S3200x1, .f32⟩
  | .local _ .vmem, ⟨14, _⟩ => ⟨S3200x1, .f32⟩
  | _, _ => ⟨S1x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v7 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v8 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_call3_cst : Ref sig .tc := ⟨.hbm, 102, rfl⟩
abbrev main_call3_v15 : Ref sig .tc := ⟨.hbm, 103, rfl⟩
abbrev main_v9 : Ref sig .tc := ⟨.hbm, 104, rfl⟩
abbrev main_v10 : Ref sig .tc := ⟨.hbm, 105, rfl⟩
abbrev main_v11 : Ref sig .tc := ⟨.hbm, 106, rfl⟩
abbrev main_v12 : Ref sig .tc := ⟨.hbm, 107, rfl⟩
abbrev main_v13 : Ref sig .tc := ⟨.hbm, 108, rfl⟩
abbrev main_v14 : Ref sig .tc := ⟨.hbm, 109, rfl⟩
abbrev main_v15 : Ref sig .tc := ⟨.hbm, 110, rfl⟩
abbrev main_v16 : Ref sig .tc := ⟨.hbm, 111, rfl⟩
abbrev main_v17 : Ref sig .tc := ⟨.hbm, 112, rfl⟩
abbrev main_v18 : Ref sig .tc := ⟨.hbm, 113, rfl⟩
abbrev main_v19 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3200x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S1x50000x128_S50000x128 : S1x50000x128.ShapeCasts S50000x128
  shapeCasts_S1x50000x2_S50000x2 : S1x50000x2.ShapeCasts S50000x2
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000_S800000x2_0 : S800000.BroadcastsInDim S800000x2 (![0] : Fin 1 → Fin S800000x2.rank)
  bcast_S_S800000x2 : S_.BroadcastsInDim S800000x2 (![] : Fin 0 → Fin S800000x2.rank)
  slices_S258x128_S128x128_0_0 : S258x128.Slices ![0, 0] S128x128
  slices_S258x128_S128x128_128_0 : S258x128.Slices ![128, 0] S128x128
  slices_S258x128_S1x128_256_0 : S258x128.Slices ![256, 0] S1x128
  slices_S258x128_S1x128_257_0 : S258x128.Slices ![257, 0] S1x128
  shapeCasts_S128_S1x128 : S128.ShapeCasts S1x128
  shapeCasts_S128x1_S1x128 : S128x1.ShapeCasts S1x128
  shapeCasts_S1_S1x1 : S1.ShapeCasts S1x1
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S3200x2_S3200x2_0_0 : ∀ a, (![0, 0] : Fin 2 → Nat) a + S3200x2.size a ≤ S3200x2.size a
  h_S3200x2 : 0 < S3200x2.numel
  shapeCasts_S3200x2_S3200x2 : S3200x2.ShapeCasts S3200x2
  slices_S3200x2_o0_0_S3200x1 : S3200x2.Slices ![0, 0] S3200x1
  slices_S3200x2_o0_1_S3200x1 : S3200x2.Slices ![0, 1] S3200x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S3200x1_S3200x128 : S3200x1.Broadcasts S3200x128
  broadcasts_S1x128_S3200x128 : S1x128.Broadcasts S3200x128
  reduces_S3200x128_S3200 : S3200x128.Reduces [1] S3200
  shapeCasts_S3200_S3200x1 : S3200.ShapeCasts S3200x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3200x1 : S1x1.Broadcasts S3200x1
  inb_S3200x1_S3200x1_0_0 : ∀ a, (![0, 0] : Fin 2 → Nat) a + S3200x1.size a ≤ S3200x1.size a
  h_S3200x1 : 0 < S3200x1.numel
  shapeCasts_S800000x1_S1x800000x1 : S800000x1.ShapeCasts S1x800000x1
  gather_S50000x128_S800000x1_S800000x128_1_0_n_n_0_1_1128_wf : GatherDims.WF S50000x128 S800000x1 S800000x128 [1] [0] [] [0] [] 1 ![1, 128]
  gather_S50000x2_S800000x1_S800000x2_1_0_n_n_0_1_12_wf : GatherDims.WF S50000x2 S800000x1 S800000x2 [1] [0] [] [0] [] 1 ![1, 2]
  dot_S3200x128_S128x128_S3200x128_1_0_0_1_n_n_wf : DotDims.WF S3200x128 S128x128 S3200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .f32 = 32 ∨ (Rect.block (s := S800000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x2.size a ≤ S800000x2.size a
  hwx0_2 : ∀ i : grid0.Coords, EltTy.bits .f32 = 32 ∨ (Rect.block (s := S800000x2) S3200x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3200x1.size a ≤ S800000x1.size a
  hwx0_10 : ∀ i : grid0.Coords, EltTy.bits .f32 = 32 ∨ (Rect.block (s := S800000x1) S3200x1.size (cc0_transform_10 i) (hinb0_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf

abbrev win0_0 : Pipeline.Window sig grid0 :=
  Pipeline.Window.ofSpec (Memref.whole main_v6) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S3200x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S3200x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1x50000x128 : Shape := ⟨3, ![1, 50000, 128]⟩
abbrev S1x50000x2 : Shape := ⟨3, ![1, 50000, 2]⟩
abbrev S2x800000 : Shape := ⟨2, ![2, 800000]⟩
abbrev S258x128 : Shape := ⟨2, ![258, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x800000x128 : Shape := ⟨3, ![1, 800000, 128]⟩
abbrev S1x800000x2 : Shape := ⟨3, ![1, 800000, 2]⟩
abbrev S1x800000x258 : Shape := ⟨3, ![1, 800000, 258]⟩
abbrev S1x1x128 : Shape := ⟨3, ![1, 1, 128]⟩
abbrev S1x800000x1 : Shape := ⟨3, ![1, 800000, 1]⟩
abbrev S1x1x1 : Shape := ⟨3, ![1, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S1x50000x128, .f32⟩
  | .hbm, ⟨1, _⟩ => ⟨S1x50000x2, .f32⟩
  | .hbm, ⟨2, _⟩ => ⟨S2x800000, .i32⟩
  | .hbm, ⟨3, _⟩ => ⟨S258x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S1x800000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S1x800000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S1x800000x2, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S1x800000x2, .f32⟩
  | .hbm, ⟨47, _⟩ => ⟨S1x800000x2, .f32⟩
  | .hbm, ⟨48, _⟩ => ⟨S1x800000x258, .f32⟩
  | .hbm, ⟨49, _⟩ => ⟨S1x800000x128, .f32⟩
  | .hbm, ⟨50, _⟩ => ⟨S1x1x128, .f32⟩
  | .hbm, ⟨51, _⟩ => ⟨S1x800000x128, .f32⟩
  | .hbm, ⟨52, _⟩ => ⟨S1x800000x128, .f32⟩
  | .hbm, ⟨53, _⟩ => ⟨S_, .f32⟩
  | .hbm, ⟨54, _⟩ => ⟨S1x800000x128, .f32⟩
  | .hbm, ⟨55, _⟩ => ⟨S1x800000x128, .f32⟩
  | .hbm, ⟨56, _⟩ => ⟨S1x800000x1, .f32⟩
  | .hbm, ⟨57, _⟩ => ⟨S1x1x1, .f32⟩
  | .hbm, ⟨58, _⟩ => ⟨S1x800000x1, .f32⟩
  | .hbm, ⟨59, _⟩ => ⟨S1x800000x1, .f32⟩
  | _, _ => ⟨S1x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_cst : Ref sig .tc := ⟨.hbm, 53, rfl⟩
abbrev main_call0_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S1x800000x128_S1x800000x128_S1x800000x2_S1x800000x258_d2 : Shape.Concatenates [S1x800000x128, S1x800000x128, S1x800000x2] S1x800000x258 2
  bcast_S128_S1x1x128_2 : S128.BroadcastsInDim S1x1x128 (![2] : Fin 1 → Fin S1x1x128.rank)
  bcast_S1x1x128_S1x800000x128_0_1_2 : S1x1x128.BroadcastsInDim S1x800000x128 (![0, 1, 2] : Fin 3 → Fin S1x800000x128.rank)
  bcast_S_S1x800000x128 : S_.BroadcastsInDim S1x800000x128 (![] : Fin 0 → Fin S1x800000x128.rank)
  bcast_S1_S1x1x1_2 : S1.BroadcastsInDim S1x1x1 (![2] : Fin 1 → Fin S1x1x1.rank)
  bcast_S1x1x1_S1x800000x1_0_1_2 : S1x1x1.BroadcastsInDim S1x800000x1 (![0, 1, 2] : Fin 3 → Fin S1x800000x1.rank)
  gather_S1x50000x128_S800000x1_S1x800000x128_02_1_n_n_1_1_11128_wf : GatherDims.WF S1x50000x128 S800000x1 S1x800000x128 [0, 2] [1] [] [1] [] 1 ![1, 1, 128]
  gather_S1x50000x2_S800000x1_S1x800000x2_02_1_n_n_1_1_112_wf : GatherDims.WF S1x50000x2 S800000x1 S1x800000x2 [0, 2] [1] [] [1] [] 1 ![1, 1, 2]
  dot_S1x800000x258_S258x128_S1x800000x128_2_0_01_1_n_n_wf : DotDims.WF S1x800000x258 S258x128 S1x800000x128 [2] [0] [0, 1] [1] [] []
  dot_S1x800000x128_S128x1_S1x800000x1_2_0_01_1_n_n_wf : DotDims.WF S1x800000x128 S128x1 S1x800000x1 [2] [0] [0, 1] [1] [] []

variable [Facts₀]

def gather_S1x50000x128_S800000x1_S1x800000x128_02_1_n_n_1_1_11128 : GatherDims S1x50000x128 S800000x1 S1x800000x128 where
  offsetDims := [0, 2]
  collapsedSliceDims := [1]
  operandBatchingDims := []
  startIndicesBatchingDims := []
  startIndexMap := [1]
  indexVectorDim := 1
  sliceSizes := ![1, 1, 128]
  wf := gather_S1x50000x128_S800000x1_S1x800000x128_02_1_n_n_1_1_11128_wf
def gather_S1x50000x2_S800000x1_S1x800000x2_02_1_n_n_1_1_112 : GatherDims S1x50000x2 S800000x1 S1x800000x2 where
  offsetDims := [0, 2]
  collapsedSliceDims := [1]
  operandBatchingDims := []
  startIndicesBatchingDims := []
  startIndexMap := [1]
  indexVectorDim := 1
  sliceSizes := ![1, 1, 2]
  wf := gather_S1x50000x2_S800000x1_S1x800000x2_02_1_n_n_1_1_112_wf
def dot_S1x800000x258_S258x128_S1x800000x128_2_0_01_1_n_n : DotDims S1x800000x258 S258x128 S1x800000x128 where
  lhsContracting := [2]
  rhsContracting := [0]
  lhsNonContracting := [0, 1]
  rhsNonContracting := [1]
  lhsBatch := []
  rhsBatch := []
  wf := dot_S1x800000x258_S258x128_S1x800000x128_2_0_01_1_n_n_wf
def dot_S1x800000x128_S128x1_S1x800000x1_2_0_01_1_n_n : DotDims S1x800000x128 S128x1 S1x800000x1 where
  lhsContracting := [2]
  rhsContracting := [0]
  lhsNonContracting := [0, 1]
  rhsNonContracting := [1]
  lhsBatch := []
  rhsBatch := []
  wf := dot_S1x800000x128_S128x1_S1x800000x1_2_0_01_1_n_n_wf

class Facts : Prop extends Facts₀ where

variable [Facts]
-- ==== Proof.EdgeScore.lean ====
/-
  The edge score as ONE function of the argument arrays, index by index, on the extended reals.

  For edge `e` with endpoints `s = src e`, `d = dst e` (rows of the 50000-row tables named by the two rows of the
  index array, a negative word wrapped by the table's length and the result clamped into the table, as the gather
  reads it), the feature row is the 258 numbers
      tokens[s, 0..127],  tokens[d, 0..127],  coords[d, 0] - coords[s, 0],  coords[d, 1] - coords[s, 1],
  the hidden row is  `max (feat · W1[:, c] + b1[c]) 0`  for the 128 columns `c`, and the score is
  `hidden · W2[:, 0] + b2[0]`.

  A sum over the 258 features is the sum over the first 128, plus the sum over the next 128, plus the last two
  terms: the only law between the two arrangements of the first layer, and it holds in any commutative monoid, so
  on the extended reals with no finiteness assumed.
-/
import Idealize.ShloMosaic.PureOps.Ideal
import Idealize.ShloMosaic.PureOps.Ideal.Laws
import Idealize.ShloMosaic.Lib.ValueIdx

noncomputable section

namespace Cert.EdgeScore

open Idealize.ShloMosaic Idealize.ShloMosaic.ValueIdx

/-- A negative index counts from the table's end: the table's length is added to it. -/
def wrap (w : BitVec 32) : BitVec 32 := Scalar.select (IntOp.cmpi .slt w 0#32) (IntOp.addi w 50000#32) w

/-- The row of a 50000-row table a start index names: read signed and clamped into the table. -/
def row (w : BitVec 32) : Fin 50000 := ⟨min w.toInt.toNat 49999, by omega⟩

section
variable (T : (⟨3, ![1, 50000, 128]⟩ : Shape).Idx → EReal) (C : (⟨3, ![1, 50000, 2]⟩ : Shape).Idx → EReal)
  (E : (⟨2, ![2, 800000]⟩ : Shape).Idx → BitVec 32) (W1 : (⟨2, ![258, 128]⟩ : Shape).Idx → EReal)
  (B1 : (⟨1, ![128]⟩ : Shape).Idx → EReal) (W2 : (⟨2, ![128, 1]⟩ : Shape).Idx → EReal) (B2 : (⟨1, ![1]⟩ : Shape).Idx → EReal)

/-- The source row of edge `e`. -/
def src (e : Fin 800000) : Fin 50000 := row (wrap (E (ix2 0 e)))
/-- The destination row of edge `e`. -/
def dst (e : Fin 800000) : Fin 50000 := row (wrap (E (ix2 1 e)))

/-- The coordinate difference of edge `e`, destination minus source, on coordinate axis `a`. -/
def delta (e : Fin 800000) (a : Fin 2) : EReal := C (ix3 0 (dst E e) a) - C (ix3 0 (src E e) a)

/-- The first layer before the rectifier, in the arrangement that keeps the three parts of the feature row apart:
    source tokens against rows 0..127 of `W1`, destination tokens against rows 128..255, the two coordinate
    differences against rows 256 and 257, then the bias. -/
def pre (e : Fin 800000) (c : Fin 128) : EReal :=
  ((((∑ k : Fin 128, T (ix3 0 (src E e) k) * W1 (ix2 ⟨k.val, by omega⟩ c))
      + ∑ k : Fin 128, T (ix3 0 (dst E e) k) * W1 (ix2 ⟨128 + k.val, by omega⟩ c))
      + delta C E e 0 * W1 (ix2 ⟨256, by omega⟩ c))
      + delta C E e 1 * W1 (ix2 ⟨257, by omega⟩ c))
      + B1 (ix1 c)

/-- The score of edge `e`: the rectified first layer against the one column of `W2`, plus the bias. -/
def score (e : Fin 800000) : EReal :=
  (∑ c : Fin 128, max (pre T C E W1 B1 e c) 0 * W2 (ix2 c 0)) + B2 (ix1 0)

/-- The result array `[1, 800000, 1]`. -/
def G : (⟨3, ![1, 800000, 1]⟩ : Shape).Idx → EReal := fun j => score T C E W1 B1 W2 B2 (j 1)

end

/-- A sum over 258 terms is the sum of the first 128, the next 128 and the last two, in any commutative monoid. -/
theorem sum_258 {M : Type*} [AddCommMonoid M] (g : Fin 258 → M) :
    ∑ f : Fin 258, g f
      = (((∑ k : Fin 128, g ⟨k.val, by omega⟩) + ∑ k : Fin 128, g ⟨128 + k.val, by omega⟩) + g ⟨256, by omega⟩) + g ⟨257, by omega⟩ := by
  rw [Fin.sum_univ_castSucc (n := 257) g, Fin.sum_univ_castSucc (n := 256) (fun i => g (Fin.castSucc i))]
  rw [Fin.sum_univ_add (a := 128) (b := 128) (fun i => g (Fin.castSucc (Fin.castSucc i)))]
  rfl

end Cert.EdgeScore

end
-- ==== Proof.IndexRange.lean ====
/-
  The index array's evident domain, and what it gives at one word.

  An index word is IN RANGE when, read signed, it lies in `[0, 50000)`: it names a row of the 50000-row tables.
  For such a word the wrap of negative indices leaves it alone, and the wrapped word passes the two bound tests
  `0 ≤ · ` and ` · ≤ 49999` with which the kernel's take guards its gather.
-/
import proofs.«407230_j28398323761860_1_alg».proof.Proof.EdgeScore

namespace Cert.EdgeScore

open Idealize.ShloMosaic Idealize.ShloMosaic.ValueIdx

/-- Every word of the index array names a row of the tables. -/
def InRange (E : (⟨2, ![2, 800000]⟩ : Shape).Idx → BitVec 32) : Prop :=
  ∀ i, IntOp.cmpi .sge (E i) 0#32 = 1#1 ∧ IntOp.cmpi .slt (E i) 50000#32 = 1#1

/-- The one-bit word of a Boolean is `1` exactly when the Boolean holds. -/
theorem eq_true_of_ofBool {b : Bool} (h : BitVec.ofBool b = 1#1) : b = true := by
  cases b
  · exact absurd h (by decide)
  · rfl

theorem ofBool_of_eq_true {b : Bool} (h : b = true) : BitVec.ofBool b = 1#1 := by
  subst h; rfl

theorem toInt_nonneg_of_sge {w : BitVec 32} (h0 : IntOp.cmpi .sge w 0#32 = 1#1) : 0 ≤ w.toInt := by
  have h : (0#32).sle w = true := eq_true_of_ofBool h0
  simpa [BitVec.sle] using h

theorem toInt_lt_of_slt {w : BitVec 32} (h1 : IntOp.cmpi .slt w 50000#32 = 1#1) : w.toInt < 50000 := by
  have h : w.slt 50000#32 = true := eq_true_of_ofBool h1
  have h' : w.toInt < (50000#32 : BitVec 32).toInt := by simpa [BitVec.slt] using h
  have e : (50000#32 : BitVec 32).toInt = 50000 := by decide
  omega

/-- A non-negative word is not wrapped. -/
theorem wrap_of_nonneg {w : BitVec 32} (h0 : IntOp.cmpi .sge w 0#32 = 1#1) : wrap w = w := by
  have hn := toInt_nonneg_of_sge h0
  have hs : w.slt 0#32 = false := by
    simp [BitVec.slt]; omega
  unfold wrap
  have hc : IntOp.cmpi .slt w 0#32 = 0#1 := by
    show BitVec.ofBool (w.slt 0#32) = 0#1
    rw [hs]; rfl
  rw [hc]
  exact ValueIdx.select_zero _ _

/-- The wrapped word of an in-range word passes the lower bound test. -/
theorem wrap_sge_zero {w : BitVec 32} (h0 : IntOp.cmpi .sge w 0#32 = 1#1) :
    IntOp.cmpi .sge (wrap w) 0#32 = 1#1 := by
  rw [wrap_of_nonneg h0]; exact h0

/-- The wrapped word of an in-range word passes the upper bound test. -/
theorem wrap_sle_last {w : BitVec 32} (h0 : IntOp.cmpi .sge w 0#32 = 1#1) (h1 : IntOp.cmpi .slt w 50000#32 = 1#1) :
    IntOp.cmpi .sle (wrap w) 49999#32 = 1#1 := by
  rw [wrap_of_nonneg h0]
  have hl := toInt_lt_of_slt h1
  have e : (49999#32 : BitVec 32).toInt = 49999 := by decide
  have : w.sle 49999#32 = true := by
    simp [BitVec.sle]; omega
  exact ofBool_of_eq_true this

/-- A left fold by `and` from `1` over words that are all `1` is `1`. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l (fun n hn => h n (List.mem_cons_of_mem _ hn))

end Cert.EdgeScore
-- ==== Proof.PreDecode.lean ====
/-
  From the printed precondition to the index array's evident domain.

  The precondition is a conjunction, taken left to right, of one `all` per float argument (every entry finite)
  and, last, the `all` over the index array of  `0 ≤ word`  and  `word < 50000`  (signed). That it evaluates to
  one says in particular that this last conjunct is one, so every word of the index array passes both tests.
-/
import proofs.«407230_j28398323761860_1_alg».proof.Pre_finite_inputs
import proofs.«407230_j28398323761860_1_alg».proof.Proof.IndexRange
import Idealize.ShloMosaic.Lib.ReduceAll

namespace Cert.EdgeScore

open Idealize.ShloMosaic Idealize.ShloMosaic.ValueIdx Cert.Pre_finite_inputs

instance : Subsingleton (Cert.Pre_finite_inputs.S_.Idx) := ⟨fun a b => funext fun d => d.elim0⟩

/-- Where the precondition holds, every word of the index array names a row of the tables. -/
theorem inRange_of_pre [Cert.Pre_finite_inputs.Facts]
    (T : S1x50000x128.Idx → EReal) (C : S1x50000x2.Idx → EReal) (E : S2x800000.Idx → BitVec 32)
    (W1 : S258x128.Idx → EReal) (B1 : S128.Idx → EReal) (W2 : S128x1.Idx → EReal) (B2 : S1.Idx → EReal)
    (h : Cert.Pre_finite_inputs.fn (F := Ideal) T C E W1 B1 W2 B2 = fun _ => 1#1) : InRange E := by
  have h0 := congrFun h ix0
  dsimp only [fn, fn_part1, fn_part2] at h0
  have hall := (IntOp.andi_eq_one.1 h0).2
  intro i
  have hi := Host.reduce_andi_all _ _ _ _ _ hall i
  exact IntOp.andi_eq_one.1 hi

end Cert.EdgeScore
-- ==== Proof.RefScore.lean ====
/-
  The reference program computes the edge score.

  Read index by index, the reference's result at edge `e` is the score of `e` as the specification states it: the
  two rows of the index array are wrapped (a negative word counts from the table's end) and then name, clamped
  into the table, the source and destination rows; the feature row joins the source tokens, the destination
  tokens and the two coordinate differences (destination minus source); the first layer is the 258-term
  contraction with the first weight matrix plus its bias, rectified; the score is the 128-term contraction with the
  one column of the second weight matrix plus its bias. The only law used between the reference's arrangement of
  the first layer and the specification's is the splitting of a 258-term sum into 128 + 128 + 1 + 1 terms.
-/
import proofs.«407230_j28398323761860_1_alg».proof.Proof.Gen.ReferenceIdeal.Run
import proofs.«407230_j28398323761860_1_alg».proof.Proof.Gen.ReferenceIdeal.Read
import proofs.«407230_j28398323761860_1_alg».proof.Proof.EdgeScore

noncomputable section

namespace Cert.ReferenceIdeal.RefScore

open Idealize.ShloMosaic Idealize.ShloMosaic.ValueIdx
open Cert.ReferenceIdeal Cert.ReferenceIdeal.Gen Cert.EdgeScore

/-- The dimension numbers of a row gather: a table `[1, N, C]`, one start index per result row (a column `[n, 1]`),
    the row axis collapsed and start-indexed, the other two axes offset axes of full extent. -/
abbrev rowDims (N n C : Nat)
    (wf : GatherDims.WF ⟨3, ![1, N, C]⟩ ⟨2, ![n, 1]⟩ ⟨3, ![1, n, C]⟩ [0, 2] [1] [] [1] [] 1 ![1, 1, C]) :
    GatherDims ⟨3, ![1, N, C]⟩ ⟨2, ![n, 1]⟩ ⟨3, ![1, n, C]⟩ where
  offsetDims := [0, 2]
  collapsedSliceDims := [1]
  operandBatchingDims := []
  startIndicesBatchingDims := []
  startIndexMap := [1]
  indexVectorDim := 1
  sliceSizes := ![1, 1, C]
  wf := wf

/-- The row gather at `(0, e, k)`: the table at row `v = idx[e, 0]`, read signed and clamped into `[0, N - 1]`, column `k`. -/
theorem gather_row_apply {α : Type} {N n C w : Nat} (hN : 0 < N)
    (wf : GatherDims.WF ⟨3, ![1, N, C]⟩ ⟨2, ![n, 1]⟩ ⟨3, ![1, n, C]⟩ [0, 2] [1] [] [1] [] 1 ![1, 1, C])
    (x : (⟨3, ![1, N, C]⟩ : Shape).Idx → α) (idx : IVec ⟨2, ![n, 1]⟩ w) (e : Fin n) (k : Fin C)
    (v : BitVec w) (hv : idx (ix2 e 0) = v) :
    Host.gather (rowDims N n C wf) x idx (ix3 0 e k) = x (ix3 0 ⟨min v.toInt.toNat (N - 1), by omega⟩ k) := by
  subst hv
  unfold Host.gather
  congr 1
  funext a
  refine Fin.ext ?_
  match a with
  | ⟨0, _⟩ => rfl
  | ⟨1, _⟩ =>
    show (rowDims N n C wf).start (ix3 0 e k) idx 1 + (rowDims N n C wf).batchCoord (ix3 0 e k) 1
        + (rowDims N n C wf).offCoord (ix3 0 e k) 1 = _
    have h1 : (rowDims N n C wf).batchCoord (ix3 0 e k) 1 = 0 := rfl
    have h2 : (rowDims N n C wf).offCoord (ix3 0 e k) 1 = 0 := rfl
    rw [h1, h2]
    simp only [Nat.add_zero]
    unfold GatherDims.start
    rw [dif_pos (show (1 : Fin 3) ∈ (rowDims N n C wf).startIndexMap from List.mem_singleton.mpr rfl)]
    have hsi : (rowDims N n C wf).siIdx (ix3 0 e k) ⟨List.idxOf (1 : Fin 3) (rowDims N n C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨2, _⟩ =>
    show (rowDims N n C wf).start (ix3 0 e k) idx 2 + (rowDims N n C wf).batchCoord (ix3 0 e k) 2
        + (rowDims N n C wf).offCoord (ix3 0 e k) 2 = k.val
    have h0 : (rowDims N n C wf).start (ix3 0 e k) idx 2 = 0 := rfl
    have h1 : (rowDims N n C wf).batchCoord (ix3 0 e k) 2 = 0 := rfl
    have h2 : (rowDims N n C wf).offCoord (ix3 0 e k) 2 = k.val := rfl
    rw [h0, h1, h2]
    omega

/-! ## The index words -/

section Words
variable (E : S2x800000.Idx → BitVec 32)

/-- Row 0 of the index array, flattened, at `e`. -/
theorem row0_apply (e : Fin 800000) : Read.val_main_v1 (F := Ideal) E (ix1 e) = E (ix2 0 e) := by
  rw [Read.val_main_v1_apply, Read.val_main_v0_apply]
  refine congrArg E (funext fun a => ?_)
  match a with
  | ⟨0, _⟩ => rfl
  | ⟨1, _⟩ => exact Fin.ext (Nat.mod_eq_of_lt e.isLt)

/-- Row 1 of the index array, flattened, at `e`. -/
theorem row1_apply (e : Fin 800000) : Read.val_main_v3 (F := Ideal) E (ix1 e) = E (ix2 1 e) := by
  rw [Read.val_main_v3_apply, Read.val_main_v2_apply]
  refine congrArg E (funext fun a => ?_)
  match a with
  | ⟨0, _⟩ => rfl
  | ⟨1, _⟩ => exact Fin.ext (Nat.mod_eq_of_lt e.isLt)

/-- The position `[e, 0]` of a column of start indices reads position `e` of the flat vector it was made from. -/
theorem col_idx (e : Fin 800000) : Read.idx_main_v9 (ix2 e 0) = ix1 e :=
  funext fun a => match a with | ⟨0, _⟩ => rfl

/-- The first token gather's start index at `e`: the wrapped word of row 0. -/
theorem start_v9 (e : Fin 800000) : Read.val_main_v9 (F := Ideal) E (ix2 e 0) = wrap (E (ix2 0 e)) := by
  rw [Read.val_main_v9_apply]
  show Read.val_main_v8 (F := Ideal) E (Read.idx_main_v9 (ix2 e 0)) = _
  rw [col_idx e, Read.val_main_v8_apply, Read.val_main_v5_apply, Read.val_main_v7_apply, Read.val_main_v4_apply,
    Read.val_main_v6_apply, Read.val_main_c_apply, Read.val_main_c_0_apply, row0_apply E e]
  rfl

/-- The second token gather's start index at `e`: the wrapped word of row 1. -/
theorem start_v16 (e : Fin 800000) : Read.val_main_v16 (F := Ideal) E (ix2 e 0) = wrap (E (ix2 1 e)) := by
  rw [Read.val_main_v16_apply]
  show Read.val_main_v15 (F := Ideal) E (Read.idx_main_v9 (ix2 e 0)) = _
  rw [col_idx e, Read.val_main_v15_apply, Read.val_main_v12_apply, Read.val_main_v14_apply, Read.val_main_v11_apply,
    Read.val_main_v13_apply, Read.val_main_c_1_apply, Read.val_main_c_2_apply, row1_apply E e]
  rfl

/-- The first coordinate gather's start index at `e`: the wrapped word of row 1. -/
theorem start_v23 (e : Fin 800000) : Read.val_main_v23 (F := Ideal) E (ix2 e 0) = wrap (E (ix2 1 e)) := by
  rw [Read.val_main_v23_apply]
  show Read.val_main_v22 (F := Ideal) E (Read.idx_main_v9 (ix2 e 0)) = _
  rw [col_idx e, Read.val_main_v22_apply, Read.val_main_v19_apply, Read.val_main_v21_apply, Read.val_main_v18_apply,
    Read.val_main_v20_apply, Read.val_main_c_3_apply, Read.val_main_c_4_apply, row1_apply E e]
  rfl

/-- The second coordinate gather's start index at `e`: the wrapped word of row 0. -/
theorem start_v30 (e : Fin 800000) : Read.val_main_v30 (F := Ideal) E (ix2 e 0) = wrap (E (ix2 0 e)) := by
  rw [Read.val_main_v30_apply]
  show Read.val_main_v29 (F := Ideal) E (Read.idx_main_v9 (ix2 e 0)) = _
  rw [col_idx e, Read.val_main_v29_apply, Read.val_main_v26_apply, Read.val_main_v28_apply, Read.val_main_v25_apply,
    Read.val_main_v27_apply, Read.val_main_c_5_apply, Read.val_main_c_6_apply, row0_apply E e]
  rfl

end Words

/-! ## The four gathers -/

section Gathers
variable (T : S1x50000x128.Idx → EReal) (C : S1x50000x2.Idx → EReal) (E : S2x800000.Idx → BitVec 32)

/-- The source tokens of edge `e`. -/
theorem tok_src_apply (e : Fin 800000) (k : Fin 128) :
    Read.val_main_v10 (F := Ideal) T E (ix3 0 e k) = T (ix3 0 (src E e) k) := by
  unfold Read.val_main_v10
  refine (gather_row_apply (N := 50000) (n := 800000) (C := 128) (by decide)
    gather_S1x50000x128_S800000x1_S1x800000x128_02_1_n_n_1_1_11128.wf T (Read.val_main_v9 (F := Ideal) E) e k _ (start_v9 E e)).trans ?_
  rfl

/-- The destination tokens of edge `e`. -/
theorem tok_dst_apply (e : Fin 800000) (k : Fin 128) :
    Read.val_main_v17 (F := Ideal) T E (ix3 0 e k) = T (ix3 0 (dst E e) k) := by
  unfold Read.val_main_v17
  refine (gather_row_apply (N := 50000) (n := 800000) (C := 128) (by decide)
    gather_S1x50000x128_S800000x1_S1x800000x128_02_1_n_n_1_1_11128.wf T (Read.val_main_v16 (F := Ideal) E) e k _ (start_v16 E e)).trans ?_
  rfl

/-- The destination coordinates of edge `e`. -/
theorem crd_dst_apply (e : Fin 800000) (a : Fin 2) :
    Read.val_main_v24 (F := Ideal) C E (ix3 0 e a) = C (ix3 0 (dst E e) a) := by
  unfold Read.val_main_v24
  refine (gather_row_apply (N := 50000) (n := 800000) (C := 2) (by decide)
    gather_S1x50000x2_S800000x1_S1x800000x2_02_1_n_n_1_1_112.wf C (Read.val_main_v23 (F := Ideal) E) e a _ (start_v23 E e)).trans ?_
  rfl

/-- The source coordinates of edge `e`. -/
theorem crd_src_apply (e : Fin 800000) (a : Fin 2) :
    Read.val_main_v31 (F := Ideal) C E (ix3 0 e a) = C (ix3 0 (src E e) a) := by
  unfold Read.val_main_v31
  refine (gather_row_apply (N := 50000) (n := 800000) (C := 2) (by decide)
    gather_S1x50000x2_S800000x1_S1x800000x2_02_1_n_n_1_1_112.wf C (Read.val_main_v30 (F := Ideal) E) e a _ (start_v30 E e)).trans ?_
  rfl

/-- The coordinate difference of edge `e`: destination minus source. -/
theorem delta_apply (e : Fin 800000) (a : Fin 2) :
    Read.val_main_v32 (F := Ideal) C E (ix3 0 e a) = delta C E e a := by
  rw [Read.val_main_v32_apply, crd_dst_apply C E e a, crd_src_apply C E e a]
  rfl

end Gathers

/-! ## The feature row -/

section Features
variable (T : S1x50000x128.Idx → EReal) (C : S1x50000x2.Idx → EReal) (E : S2x800000.Idx → BitVec 32)

/-- The three pieces of the feature row, in order along the feature axis. -/
abbrev pieces : List ((s : Shape) × (s.Idx → EReal)) :=
  [⟨S1x800000x128, Read.val_main_v10 (F := Ideal) T E⟩, ⟨S1x800000x128, Read.val_main_v17 (F := Ideal) T E⟩,
    ⟨S1x800000x2, Read.val_main_v32 (F := Ideal) C E⟩]

/-- Features `0 .. 127`: the source tokens. -/
theorem feat_src_apply (e : Fin 800000) (k : Fin 128) :
    Read.val_main_v33 (F := Ideal) T C E (ix3 0 e (⟨k.val, by omega⟩ : Fin 258)) = T (ix3 0 (src E e) k) := by
  unfold Read.val_main_v33
  refine Eq.trans ?_ (tok_src_apply T E e k)
  refine concatenate_apply_piece (t := S1x800000x258) (2 : Fin 3) (pieces T C E) _ _ 0 (Nat.lt_of_sub_eq_succ (m := 3) rfl) S1x800000x128
    (Read.val_main_v10 (F := Ideal) T E) rfl rfl 0 rfl (ix3 0 e k) (fun b hb => ?_) ?_
  · match b with
    | ⟨0, _⟩ => rfl
    | ⟨1, _⟩ => rfl
    | ⟨2, _⟩ => exact absurd rfl hb
  · exact Nat.zero_add _

/-- Features `128 .. 255`: the destination tokens. -/
theorem feat_dst_apply (e : Fin 800000) (k : Fin 128) :
    Read.val_main_v33 (F := Ideal) T C E (ix3 0 e (⟨128 + k.val, by omega⟩ : Fin 258)) = T (ix3 0 (dst E e) k) := by
  unfold Read.val_main_v33
  refine Eq.trans ?_ (tok_dst_apply T E e k)
  refine concatenate_apply_piece (t := S1x800000x258) (2 : Fin 3) (pieces T C E) _ _ 1 (Nat.lt_of_sub_eq_succ (m := 3) rfl) S1x800000x128
    (Read.val_main_v17 (F := Ideal) T E) rfl rfl 128 rfl (ix3 0 e k) (fun b hb => ?_) ?_
  · match b with
    | ⟨0, _⟩ => rfl
    | ⟨1, _⟩ => rfl
    | ⟨2, _⟩ => exact absurd rfl hb
  · rfl

/-- Features `256` and `257`: the two coordinate differences. -/
theorem feat_delta_apply (e : Fin 800000) (a : Fin 2) :
    Read.val_main_v33 (F := Ideal) T C E (ix3 0 e (⟨256 + a.val, by omega⟩ : Fin 258)) = delta C E e a := by
  unfold Read.val_main_v33
  refine Eq.trans ?_ (delta_apply C E e a)
  refine concatenate_apply_piece (t := S1x800000x258) (2 : Fin 3) (pieces T C E) _ _ 2 (Nat.lt_of_sub_eq_succ (m := 3) rfl) S1x800000x2
    (Read.val_main_v32 (F := Ideal) C E) rfl rfl 256 rfl (ix3 0 e a) (fun b hb => ?_) ?_
  · match b with
    | ⟨0, _⟩ => rfl
    | ⟨1, _⟩ => rfl
    | ⟨2, _⟩ => exact absurd rfl hb
  · rfl

end Features

/-! ## The two layers -/

section Layers
variable (T : S1x50000x128.Idx → EReal) (C : S1x50000x2.Idx → EReal) (E : S2x800000.Idx → BitVec 32)
  (W1 : S258x128.Idx → EReal) (B1 : S128.Idx → EReal) (W2 : S128x1.Idx → EReal) (B2 : S1.Idx → EReal)

/-- The first contraction reads feature `f` of edge `e` … -/
theorem lidx34 (e : Fin 800000) (c : Fin 128) (f : Fin 258) :
    Read.lidx_main_v34 (ix3 (0 : Fin 1) e c) f = ix3 0 e f :=
  funext fun a => match a with | ⟨0, _⟩ => rfl | ⟨1, _⟩ => rfl | ⟨2, _⟩ => rfl

/-- … against row `f`, column `c` of the first weight matrix. -/
theorem ridx34 (e : Fin 800000) (c : Fin 128) (f : Fin 258) :
    Read.ridx_main_v34 (ix3 (0 : Fin 1) e c) f = ix2 f c :=
  funext fun a => match a with | ⟨0, _⟩ => rfl | ⟨1, _⟩ => rfl

/-- The first contraction at `(e, c)`, its 258 terms split into the three parts of the feature row. -/
theorem dot1_apply (e : Fin 800000) (c : Fin 128) :
    Read.val_main_v34 (F := Ideal) T C E W1 (ix3 0 e c)
      = (((∑ k : Fin 128, T (ix3 0 (src E e) k) * W1 (ix2 ⟨k.val, by omega⟩ c))
          + ∑ k : Fin 128, T (ix3 0 (dst E e) k) * W1 (ix2 ⟨128 + k.val, by omega⟩ c))
          + delta C E e 0 * W1 (ix2 ⟨256, by omega⟩ c))
          + delta C E e 1 * W1 (ix2 ⟨257, by omega⟩ c) := by
  rw [Read.val_main_v34_apply]
  refine (sum_258 (fun f : Fin 258 => Read.val_main_v33 (F := Ideal) T C E (Read.lidx_main_v34 (ix3 (0 : Fin 1) e c) f)
    * W1 (Read.ridx_main_v34 (ix3 (0 : Fin 1) e c) f))).trans ?_
  refine congrArg₂ (· + ·) (congrArg₂ (· + ·) (congrArg₂ (· + ·)
    (Finset.sum_congr rfl fun k _ => ?_) (Finset.sum_congr rfl fun k _ => ?_)) ?_) ?_
  · show Read.val_main_v33 (F := Ideal) T C E (Read.lidx_main_v34 (ix3 (0 : Fin 1) e c) (⟨k.val, by omega⟩ : Fin 258))
      * W1 (Read.ridx_main_v34 (ix3 (0 : Fin 1) e c) (⟨k.val, by omega⟩ : Fin 258)) = _
    rw [lidx34, ridx34, feat_src_apply T C E e k]
  · show Read.val_main_v33 (F := Ideal) T C E (Read.lidx_main_v34 (ix3 (0 : Fin 1) e c) (⟨128 + k.val, by omega⟩ : Fin 258))
      * W1 (Read.ridx_main_v34 (ix3 (0 : Fin 1) e c) (⟨128 + k.val, by omega⟩ : Fin 258)) = _
    rw [lidx34, ridx34, feat_dst_apply T C E e k]
  · show Read.val_main_v33 (F := Ideal) T C E (Read.lidx_main_v34 (ix3 (0 : Fin 1) e c) (⟨256, by omega⟩ : Fin 258))
      * W1 (Read.ridx_main_v34 (ix3 (0 : Fin 1) e c) (⟨256, by omega⟩ : Fin 258)) = _
    rw [lidx34, ridx34]
    exact congrArg (· * W1 (ix2 ⟨256, by omega⟩ c)) (feat_delta_apply T C E e 0)
  · show Read.val_main_v33 (F := Ideal) T C E (Read.lidx_main_v34 (ix3 (0 : Fin 1) e c) (⟨257, by omega⟩ : Fin 258))
      * W1 (Read.ridx_main_v34 (ix3 (0 : Fin 1) e c) (⟨257, by omega⟩ : Fin 258)) = _
    rw [lidx34, ridx34]
    exact congrArg (· * W1 (ix2 ⟨257, by omega⟩ c)) (feat_delta_apply T C E e 1)

/-- The first layer's bias at `(e, c)`. -/
theorem bias1_apply (e : Fin 800000) (c : Fin 128) :
    Read.val_main_v36 (F := Ideal) B1 (ix3 0 e c) = B1 (ix1 c) := by
  rw [Read.val_main_v36_apply, Read.val_main_v35_apply]
  refine congrArg B1 (funext fun a => ?_)
  match a with
  | ⟨0, _⟩ => rfl

/-- The rectified first layer at `(e, c)`. -/
theorem hidden_apply (e : Fin 800000) (c : Fin 128) :
    Read.val_main_v38 (F := Ideal) T C E W1 B1 (ix3 0 e c) = max (pre T C E W1 B1 e c) 0 := by
  rw [Read.val_main_v38_apply, Read.val_main_v37_apply, Read.val_main_call0_v0_apply, Read.val_main_call0_cst_apply,
    dot1_apply T C E W1 e c, bias1_apply B1 e c]
  show max (_ + B1 (ix1 c)) (Ideal.ofBits .f32 0x00000000#32) = _
  rw [Ideal.ofBits_zero_f32]
  rfl

/-- The second contraction reads hidden column `c` of edge `e` … -/
theorem lidx39 (e : Fin 800000) (c : Fin 128) :
    Read.lidx_main_v39 (ix3 (0 : Fin 1) e (0 : Fin 1)) c = ix3 0 e c :=
  funext fun a => match a with | ⟨0, _⟩ => rfl | ⟨1, _⟩ => rfl | ⟨2, _⟩ => rfl

/-- … against row `c` of the second weight matrix's one column. -/
theorem ridx39 (e : Fin 800000) (c : Fin 128) :
    Read.ridx_main_v39 (ix3 (0 : Fin 1) e (0 : Fin 1)) c = ix2 c 0 :=
  funext fun a => match a with | ⟨0, _⟩ => rfl | ⟨1, _⟩ => rfl

/-- The second layer's bias at `e`. -/
theorem bias2_apply (e : Fin 800000) :
    Read.val_main_v41 (F := Ideal) B2 (ix3 (0 : Fin 1) e (0 : Fin 1)) = B2 (ix1 0) := by
  rw [Read.val_main_v41_apply, Read.val_main_v40_apply]
  refine congrArg B2 (funext fun a => ?_)
  match a with
  | ⟨0, _⟩ => rfl

/-- The reference's result at edge `e` is the score of `e`. -/
theorem ref_apply (e : Fin 800000) :
    Read.val_main_v42 (F := Ideal) T C E W1 B1 W2 B2 (ix3 (0 : Fin 1) e (0 : Fin 1)) = score T C E W1 B1 W2 B2 e := by
  rw [Read.val_main_v42_apply, Read.val_main_v39_apply, bias2_apply B2 e]
  refine congrArg (· + B2 (ix1 0)) (Finset.sum_congr rfl fun c _ => ?_)
  rw [lidx39, ridx39, hidden_apply T C E W1 B1 e c]

end Layers

/-- **The reference computes the edge score**, at every argument. -/
theorem ref_eq (T : Cert.ReferenceIdeal.S1x50000x128.Idx → EReal) (C : Cert.ReferenceIdeal.S1x50000x2.Idx → EReal) (E : Cert.ReferenceIdeal.S2x800000.Idx → BitVec 32) (W1 : Cert.ReferenceIdeal.S258x128.Idx → EReal) (B1 : Cert.ReferenceIdeal.S128.Idx → EReal) (W2 : Cert.ReferenceIdeal.S128x1.Idx → EReal) (B2 : Cert.ReferenceIdeal.S1.Idx → EReal) :
    Cert.ReferenceIdeal.Read.val_main_v42 (F := Ideal) T C E W1 B1 W2 B2 = Cert.EdgeScore.G T C E W1 B1 W2 B2 := by
  funext j
  have hj : j = ix3 (0 : Fin 1) (j 1) (0 : Fin 1) := by
    funext a
    match a with
    | ⟨0, _⟩ => exact Subsingleton.elim (α := Fin 1) _ _
    | ⟨1, _⟩ => rfl
    | ⟨2, _⟩ => exact Subsingleton.elim (α := Fin 1) _ _
  generalize j 1 = e at hj
  subst hj
  exact ref_apply T C E W1 B1 W2 B2 e

end Cert.ReferenceIdeal.RefScore

end
-- ==== Proof.BlockScore.lean ====
/-
  The block a grid step of the edge-score kernel stores, read at one row.

  A step holds 3200 edges: the source and destination token rows (two [3200,128] blocks), the coordinate differences
  (a [3200,2] block), the two 128-row parts of the first layer's weights, the two weight rows for the coordinate
  differences, the first bias, the second layer's weights as a row, and the second bias. Row r of what it stores is
      sum over the 128 hidden columns j of  max (pre r j) 0 * w2 j,  plus the second bias,
  where pre r j is the source row against column j of the first part, plus the destination row against column j of the
  second part, plus the two coordinate differences against their weight rows, plus the first bias.

  On the extended reals the narrowing of a matrix product's operands is the identity and the product into a zero
  accumulator is the plain sum over the contracted axis; the remaining operations are pointwise or move indices.
-/
import proofs.«407230_j28398323761860_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockScore

open Cert.KernelIdeal Cert.KernelIdeal.Gen Idealize.ShloMosaic Idealize.ShloMosaic.ValueIdx

/-! ## The matrix product's operand indices, axis by axis -/

/-- The left operand's row is the result's row. -/
theorem lhs_dot_0 (i : S3200x128.Idx) (q : dot_S3200x128_S128x128_S3200x128_1_0_0_1_n_n.contr.Idx) :
    (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide),
    dif_pos (show (0 : Fin S3200x128.rank) ∈ dot_S3200x128_S128x128_S3200x128_1_0_0_1_n_n.lhsNonContracting by decide)]
  rfl

/-- The left operand's column is the contracted coordinate. -/
theorem lhs_dot_1 (i : S3200x128.Idx) (q : dot_S3200x128_S128x128_S3200x128_1_0_0_1_n_n.contr.Idx) :
    (dot_S3200x128_S128x128_S3200x128_1_0_0_1_n_n.lhsIdx i q 1).val = (q ⟨0, by decide⟩).val :=
  dot_S3200x128_S128x128_S3200x128_1_0_0_1_n_n.lhsIdx_val_of_single rfl i q

/-- The right operand's row is the contracted coordinate. -/
theorem rhs_dot_0 (i : S3200x128.Idx) (q : dot_S3200x128_S128x128_S3200x128_1_0_0_1_n_n.contr.Idx) :
    (dot_S3200x128_S128x128_S3200x128_1_0_0_1_n_n.rhsIdx i q 0).val = (q ⟨0, by decide⟩).val :=
  dot_S3200x128_S128x128_S3200x128_1_0_0_1_n_n.rhsIdx_val_of_single rfl i q

/-- The right operand's column is the result's column. -/
theorem rhs_dot_1 (i : S3200x128.Idx) (q : dot_S3200x128_S128x128_S3200x128_1_0_0_1_n_n.contr.Idx) :
    (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide),
    dif_pos (show (1 : Fin S128x128.rank) ∈ dot_S3200x128_S128x128_S3200x128_1_0_0_1_n_n.rhsNonContracting by decide)]
  rfl

/-- A [3200,128] by [128,128] product into the zero accumulator, at row r and column j: the sum over k of the left
    operand's (r, k) times the right operand's (k, j). -/
theorem matmul_zero_apply {φ₁ φ₂ : FTy} (a : FVec Ideal S3200x128 φ₁) (b : FVec Ideal S128x128 φ₂) (r : Fin 3200) (j : Fin 128) :
    matmul dot_S3200x128_S128x128_S3200x128_1_0_0_1_n_n none a b (constant (F := Ideal) S3200x128 .f32 0x00000000#32) (ix2 r j)
      = ∑ k : Fin 128, a (ix2 r k) * b (ix2 k j) := by
  simp only [matmul]
  rw [Ideal.matmul_constant_zero_apply, ← Equiv.sum_comp (contrEquiv1 dot_S3200x128_S128x128_S3200x128_1_0_0_1_n_n 128 rfl rfl).symm]
  refine Finset.sum_congr rfl fun k _ => ?_
  have hk := contrEquiv1_symm_val dot_S3200x128_S128x128_S3200x128_1_0_0_1_n_n 128 rfl rfl k
  have el : dot_S3200x128_S128x128_S3200x128_1_0_0_1_n_n.lhsIdx (ix2 r j) ((contrEquiv1 dot_S3200x128_S128x128_S3200x128_1_0_0_1_n_n 128 rfl rfl).symm k) = ix2 r k := funext fun c => Fin.ext (by
    match c with
    | ⟨0, _⟩ => exact lhs_dot_0 _ _
    | ⟨1, _⟩ => exact (lhs_dot_1 _ _).trans hk)
  have er : dot_S3200x128_S128x128_S3200x128_1_0_0_1_n_n.rhsIdx (ix2 r j) ((contrEquiv1 dot_S3200x128_S128x128_S3200x128_1_0_0_1_n_n 128 rfl rfl).symm k) = ix2 k j := funext fun c => Fin.ext (by
    match c with
    | ⟨0, _⟩ => exact (rhs_dot_0 _ _).trans hk
    | ⟨1, _⟩ => exact rhs_dot_1 _ _)
  rw [el, er]

/-! ## Broadcasts, the two columns of the coordinate block, the lane sum and its cast -/

/-- A [a,1] column broadcast to [a,b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to [a,1] reads, at (p, u), the vector at p. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum over the 128 lanes of a [3200,128] block, at row r. -/
theorem laneSum_apply (v : FVec Ideal S3200x128 .f32) (hφ : FKind.Formats .f32)
    (hacc : (0x00000000#32 : BitVec 32) = 0x00000000#32) (r : Fin 3200) :
    multiReduction .add [1] S3200 v 0x00000000#32 reduces_S3200x128_S3200 hφ hacc (ix1 r) = ∑ j : Fin 128, v (ix2 r j) := by
  refine (Ideal.multiReduction_add_single v 0x00000000#32 reduces_S3200x128_S3200 hφ hacc (ix1 r)).trans ?_
  refine Finset.sum_congr rfl fun j _ => congrArg v (funext fun c => Fin.ext ?_)
  match c with
  | ⟨0, _⟩ => rfl
  | ⟨1, _⟩ => rfl

/-! ## The two payloads at an index -/

/-- The rectified first layer of the block, at row r and hidden column j. -/
theorem hidden_apply (v0 v3 : Vec Ideal S3200x128 .f32) (v6 v9 : Vec Ideal S128x128 .f32) (v15 : Vec Ideal S3200x2 .f32)
    (v19 v25 v31 : Vec Ideal S1x128 .f32) (r : Fin 3200) (j : Fin 128) :
    k0_pay2 (F := Ideal) v0 v3 v6 v9 v15 v19 v25 v31 (ix2 r j)
      = max (((((∑ k : Fin 128, v0 (ix2 r k) * v6 (ix2 k j)) + ∑ k : Fin 128, v3 (ix2 r k) * v9 (ix2 k j))
              + v15 (ix2 r 0) * v19 (ix2 0 j)) + v15 (ix2 r 1) * v25 (ix2 0 j)) + v31 (ix2 0 j)) 0 := by
  have e0 : ∀ h, extractStridedSlice S3200x1 ![0, 0] v15 h (ix2 r (0 : Fin 1)) = v15 (ix2 r (0 : Fin 2)) :=
    fun h => slice2_axis1_apply 0 v15 h r 0 0 rfl
  have e1 : ∀ h, extractStridedSlice S3200x1 ![0, 1] v15 h (ix2 r (0 : Fin 1)) = v15 (ix2 r (1 : Fin 2)) :=
    fun h => slice2_axis1_apply 1 v15 h r 0 1 rfl
  have ez : FloatOps.ofBits (F := Ideal) .f32 0x00000000#32 = 0 := Ideal.ofBits_zero_f32
  unfold k0_pay2
  simp only [shapeCast_self, maximumf_apply, addf_apply, mulf_apply, broadcast_apply, matmul_zero_apply, truncf_apply,
    broadcastTo_a1_ab_apply, broadcastTo_1b_ab_apply, e0, e1, ez]

/-- The block's score at row r: the hidden row against the second layer's weights, plus the second bias. -/
theorem score_apply (v36 : FVec Ideal S3200x128 .f32) (v37 : Vec Ideal S1x128 .f32) (v43 : Vec Ideal S1x1 .f32) (r : Fin 3200) :
    k0_pay1 (F := Ideal) v36 v37 v43 (ix2 r 0) = (∑ j : Fin 128, v36 (ix2 r j) * v37 (ix2 0 j)) + v43 (ix2 0 0) := by
  unfold k0_pay1
  simp only [shapeCast_self, addf_apply, shapeCast_a_a1_apply, broadcastTo_1b_ab_apply]
  refine congrArg (· + v43 (ix2 0 0)) ((laneSum_apply _ _ _ r).trans ?_)
  simp only [mulf_apply, broadcastTo_1b_ab_apply]

/-! ## The stored block -/

/-- Row r of the block a step stores: the one store covers the whole block, so it is the score payload over the
    blocks read, and the hidden row inside it is the rectified first layer. -/
theorem out_apply (x0 x1 : Vec Ideal S3200x128 .f32) (x2 : Vec Ideal S3200x2 .f32) (x3 x4 : Vec Ideal S128x128 .f32)
    (x5 x6 x7 x8 : Vec Ideal S1x128 .f32) (x9 : Vec Ideal S1x1 .f32) (r : Fin 3200) :
    out0_10 (F := Ideal) x0 x1 x2 x3 x4 x5 x6 x7 x8 x9 (ix2 r 0)
      = (∑ j : Fin 128,
          max (((((∑ k : Fin 128, x0 (ix2 r k) * x3 (ix2 k j)) + ∑ k : Fin 128, x1 (ix2 r k) * x4 (ix2 k j))
                  + x2 (ix2 r 0) * x5 (ix2 0 j)) + x2 (ix2 r 1) * x6 (ix2 0 j)) + x7 (ix2 0 j)) 0
            * x8 (ix2 0 j))
        + x9 (ix2 0 0) := by
  have hz : (![0, 0] : Fin 2 → Nat) = fun _ => 0 := by
    funext a; match a with | ⟨0, _⟩ => rfl | ⟨1, _⟩ => rfl
  unfold out0_10
  rw [View.canon_unit_zero hz]
  simp only [View.ld_unit_zero (S := S3200x128) hz, View.ld_unit_zero (S := S128x128) hz, View.ld_unit_zero (S := S3200x2) hz,
    View.ld_unit_zero (S := S1x128) hz, View.ld_unit_zero (S := S1x1) hz]
  refine (score_apply _ x8 x9 r).trans ?_
  refine congrArg (· + x9 (ix2 0 0)) (Finset.sum_congr rfl fun j _ => ?_)
  exact congrArg (· * x8 (ix2 0 j)) (hidden_apply x0 x1 x3 x4 x2 x5 x6 x7 r j)

end Cert.KernelIdeal.BlockScore

end
-- ==== Proof.StagedParams.lean ====
/-
  The seven parameter arrays the kernel region finds, read at an index.

  Before the region the host cuts the first-layer weights `W1` (258 rows of 128) into four pieces along its rows:
  rows 0..127 (the part that meets the source tokens), rows 128..255 (the part that meets the destination tokens),
  row 256 and row 257 (the parts that meet the two coordinate differences); and it lays the bias `b1` (128 numbers),
  the one column of `W2` (128 by 1) and the bias `b2` (one number) out as rows: 1 by 128, 1 by 128, 1 by 1.
  A slice read at `(k, j)` is the operand at `(offset + k, j)`; a reshape read at an index is the operand at the
  index with the same row-major position. None of the seven operations reads anything but an argument of the
  program, and no host operation before the region writes an argument, so each array is its operation applied
  to the argument as launched.

  The host operations before the region come in six stretches, and the seven arrays are all written by the last
  one, eight operations long. The contents at the region's entry are therefore the last stretch run from the
  contents `W` after the first five; an argument read there is the argument as launched, since it still is at the
  region's entry and the last stretch does not write it.
-/
import proofs.«407230_j28398323761860_1_alg».proof.Proof.Gen.KernelIdeal.Frame
import proofs.«407230_j28398323761860_1_alg».proof.Proof.IndexRange
import Idealize.ShloMosaic.Lib.Pipeline.Value
import Idealize.ShloMosaic.Lib.ValueIdx
import Idealize.ShloMosaic.Lib.StableHlo.Run

set_option maxRecDepth 16384
noncomputable section
namespace Cert.KernelIdeal.Staged
open Idealize.ShloMosaic Idealize.ShloMosaic.TcCoe Idealize.SL.Sem Idealize.ShloMosaic.ValueIdx Idealize.ShloMosaic.StableHlo
open Cert.KernelIdeal Cert.KernelIdeal.Gen Cert.EdgeScore

variable (m : (ℓ : Loc nD τ sig) → Buf (Elt Ideal) ℓ) (c : Dev nD)

abbrev aW1 : S258x128.Idx → EReal := m ((c.tc : Thread nD τ).loc main_arg3)
abbrev aB1 : S128.Idx → EReal := m ((c.tc : Thread nD τ).loc main_arg4)
abbrev aW2 : S128x1.Idx → EReal := m ((c.tc : Thread nD τ).loc main_arg5)
abbrev aB2 : S1.Idx → EReal := m ((c.tc : Thread nD τ).loc main_arg6)

/-! Everything but the seven statements and the four argument arrays is kept in a namespace of its own. -/
namespace Params

/-- Six stretches in a row are the first five, then the sixth. -/
theorem flatten_six {α : Type} (a b c d e f : List α) :
    List.flatten [a, b, c, d, e, f] = List.flatten [a, b, c, d, e] ++ f := by
  simp only [List.flatten_cons, List.flatten_nil, List.append_nil, List.append_assoc]

/-- The contents after the first five stretches of host operations. -/
abbrev W : Valuation τ sig (Elt Ideal) :=
  StableHlo.after (List.flatten [hostOps0, hostOps0_1, hostOps0_2, hostOps0_3, hostOps0_4]) (fun b => m (c, b))

/-- The region's entry contents are the last stretch run from the contents after the first five. -/
theorem V_split (b : Ref sig .tc) : V m c b = StableHlo.after hostOps0_5 (W m c) (Proc.devRef .tc b) := by
  show StableHlo.after (List.flatten [hostOps0, hostOps0_1, hostOps0_2, hostOps0_3, hostOps0_4, hostOps0_5])
    (fun b => m (c, b)) (Proc.devRef .tc b) = _
  rw [flatten_six, StableHlo.after_append]

/-! ## The last stretch, from any contents `X` -/

section Tail
variable (X : Valuation τ sig (Elt Ideal))

/-- The last stretch writes no argument of the program. -/
theorem tail_main_arg3 : StableHlo.after hostOps0_5 X (Proc.devRef .tc main_arg3) = X (Proc.devRef .tc main_arg3) := by
  dsimp only [Gen.hostOps0_5]
  after_results
theorem tail_main_arg4 : StableHlo.after hostOps0_5 X (Proc.devRef .tc main_arg4) = X (Proc.devRef .tc main_arg4) := by
  dsimp only [Gen.hostOps0_5]
  after_results
theorem tail_main_arg5 : StableHlo.after hostOps0_5 X (Proc.devRef .tc main_arg5) = X (Proc.devRef .tc main_arg5) := by
  dsimp only [Gen.hostOps0_5]
  after_results
theorem tail_main_arg6 : StableHlo.after hostOps0_5 X (Proc.devRef .tc main_arg6) = X (Proc.devRef .tc main_arg6) := by
  dsimp only [Gen.hostOps0_5]
  after_results

/-- Rows 0..127 of `W1`. -/
theorem tail_main_v11 : (StableHlo.after hostOps0_5 X (Proc.devRef .tc main_v11) : S128x128.Idx → EReal)
    = extractStridedSlice S128x128 ![0, 0] (X (Proc.devRef .tc main_arg3) : S258x128.Idx → EReal) slices_S258x128_S128x128_0_0 := by
  dsimp only [Gen.hostOps0_5]
  after_results <;> rfl
/-- Rows 128..255 of `W1`. -/
theorem tail_main_v12 : (StableHlo.after hostOps0_5 X (Proc.devRef .tc main_v12) : S128x128.Idx → EReal)
    = extractStridedSlice S128x128 ![128, 0] (X (Proc.devRef .tc main_arg3) : S258x128.Idx → EReal) slices_S258x128_S128x128_128_0 := by
  dsimp only [Gen.hostOps0_5]
  after_results <;> rfl
/-- Row 256 of `W1`. -/
theorem tail_main_v13 : (StableHlo.after hostOps0_5 X (Proc.devRef .tc main_v13) : S1x128.Idx → EReal)
    = extractStridedSlice S1x128 ![256, 0] (X (Proc.devRef .tc main_arg3) : S258x128.Idx → EReal) slices_S258x128_S1x128_256_0 := by
  dsimp only [Gen.hostOps0_5]
  after_results <;> rfl
/-- Row 257 of `W1`. -/
theorem tail_main_v14 : (StableHlo.after hostOps0_5 X (Proc.devRef .tc main_v14) : S1x128.Idx → EReal)
    = extractStridedSlice S1x128 ![257, 0] (X (Proc.devRef .tc main_arg3) : S258x128.Idx → EReal) slices_S258x128_S1x128_257_0 := by
  dsimp only [Gen.hostOps0_5]
  after_results <;> rfl
/-- `b1` as a row. -/
theorem tail_main_v15 : (StableHlo.after hostOps0_5 X (Proc.devRef .tc main_v15) : S1x128.Idx → EReal)
    = shapeCast S1x128 (X (Proc.devRef .tc main_arg4) : S128.Idx → EReal) shapeCasts_S128_S1x128 := by
  dsimp only [Gen.hostOps0_5]
  after_results <;> rfl
/-- The column of `W2` as a row. -/
theorem tail_main_v16 : (StableHlo.after hostOps0_5 X (Proc.devRef .tc main_v16) : S1x128.Idx → EReal)
    = shapeCast S1x128 (X (Proc.devRef .tc main_arg5) : S128x1.Idx → EReal) shapeCasts_S128x1_S1x128 := by
  dsimp only [Gen.hostOps0_5]
  after_results <;> rfl
/-- `b2` as a 1 by 1 array. -/
theorem tail_main_v17 : (StableHlo.after hostOps0_5 X (Proc.devRef .tc main_v17) : S1x1.Idx → EReal)
    = shapeCast S1x1 (X (Proc.devRef .tc main_arg6) : S1.Idx → EReal) shapeCasts_S1_S1x1 := by
  dsimp only [Gen.hostOps0_5]
  after_results <;> rfl

end Tail

/-! ## The arguments after the first five stretches -/

theorem W_main_arg3 : (W m c (Proc.devRef .tc main_arg3) : S258x128.Idx → EReal) = aW1 m c := by
  rw [← tail_main_arg3 (X := W m c), ← V_split, V_main_arg3]
theorem W_main_arg4 : (W m c (Proc.devRef .tc main_arg4) : S128.Idx → EReal) = aB1 m c := by
  rw [← tail_main_arg4 (X := W m c), ← V_split, V_main_arg4]
theorem W_main_arg5 : (W m c (Proc.devRef .tc main_arg5) : S128x1.Idx → EReal) = aW2 m c := by
  rw [← tail_main_arg5 (X := W m c), ← V_split, V_main_arg5]
theorem W_main_arg6 : (W m c (Proc.devRef .tc main_arg6) : S1.Idx → EReal) = aB2 m c := by
  rw [← tail_main_arg6 (X := W m c), ← V_split, V_main_arg6]

/-! ## Each array as its operation applied to the argument -/

theorem V_main_v11 : (V m c main_v11 : S128x128.Idx → EReal)
    = extractStridedSlice S128x128 ![0, 0] (aW1 m c) slices_S258x128_S128x128_0_0 := by
  rw [V_split, tail_main_v11, W_main_arg3]
theorem V_main_v12 : (V m c main_v12 : S128x128.Idx → EReal)
    = extractStridedSlice S128x128 ![128, 0] (aW1 m c) slices_S258x128_S128x128_128_0 := by
  rw [V_split, tail_main_v12, W_main_arg3]
theorem V_main_v13 : (V m c main_v13 : S1x128.Idx → EReal)
    = extractStridedSlice S1x128 ![256, 0] (aW1 m c) slices_S258x128_S1x128_256_0 := by
  rw [V_split, tail_main_v13, W_main_arg3]
theorem V_main_v14 : (V m c main_v14 : S1x128.Idx → EReal)
    = extractStridedSlice S1x128 ![257, 0] (aW1 m c) slices_S258x128_S1x128_257_0 := by
  rw [V_split, tail_main_v14, W_main_arg3]
theorem V_main_v15 : (V m c main_v15 : S1x128.Idx → EReal)
    = shapeCast S1x128 (aB1 m c) shapeCasts_S128_S1x128 := by
  rw [V_split, tail_main_v15, W_main_arg4]
theorem V_main_v16 : (V m c main_v16 : S1x128.Idx → EReal)
    = shapeCast S1x128 (aW2 m c) shapeCasts_S128x1_S1x128 := by
  rw [V_split, tail_main_v16, W_main_arg5]
theorem V_main_v17 : (V m c main_v17 : S1x1.Idx → EReal)
    = shapeCast S1x1 (aB2 m c) shapeCasts_S1_S1x1 := by
  rw [V_split, tail_main_v17, W_main_arg6]

/-! ## The operations read at an index, over any operand -/

section Read
variable (x : S258x128.Idx → EReal)

theorem rows0_apply (k j : Fin 128) :
    extractStridedSlice S128x128 ![0, 0] x slices_S258x128_S128x128_0_0 (ix2 k j) = x (ix2 ⟨k.val, by omega⟩ j) :=
  extractStridedSlice_apply ![0, 0] x slices_S258x128_S128x128_0_0 (ix2 k j) (ix2 ⟨k.val, by omega⟩ j) (fun a => match a with
    | ⟨0, _⟩ => by show k.val = 0 + k.val; omega
    | ⟨1, _⟩ => by show j.val = 0 + j.val; omega)

theorem rows128_apply (k j : Fin 128) :
    extractStridedSlice S128x128 ![128, 0] x slices_S258x128_S128x128_128_0 (ix2 k j) = x (ix2 ⟨128 + k.val, by omega⟩ j) :=
  extractStridedSlice_apply ![128, 0] x slices_S258x128_S128x128_128_0 (ix2 k j) (ix2 ⟨128 + k.val, by omega⟩ j) (fun a => match a with
    | ⟨0, _⟩ => by show 128 + k.val = 128 + k.val; omega
    | ⟨1, _⟩ => by show j.val = 0 + j.val; omega)

theorem row256_apply (j : Fin 128) :
    extractStridedSlice S1x128 ![256, 0] x slices_S258x128_S1x128_256_0 (ix2 0 j) = x (ix2 ⟨256, by omega⟩ j) :=
  extractStridedSlice_apply ![256, 0] x slices_S258x128_S1x128_256_0 (ix2 0 j) (ix2 ⟨256, by omega⟩ j) (fun a => match a with
    | ⟨0, _⟩ => by show 256 = 256 + 0; omega
    | ⟨1, _⟩ => by show j.val = 0 + j.val; omega)

theorem row257_apply (j : Fin 128) :
    extractStridedSlice S1x128 ![257, 0] x slices_S258x128_S1x128_257_0 (ix2 0 j) = x (ix2 ⟨257, by omega⟩ j) :=
  extractStridedSlice_apply ![257, 0] x slices_S258x128_S1x128_257_0 (ix2 0 j) (ix2 ⟨257, by omega⟩ j) (fun a => match a with
    | ⟨0, _⟩ => by show 257 = 257 + 0; omega
    | ⟨1, _⟩ => by show j.val = 0 + j.val; omega)

end Read

theorem vecRow_apply (y : S128.Idx → EReal) (j : Fin 128) :
    shapeCast S1x128 y shapeCasts_S128_S1x128 (ix2 0 j) = y (ix1 j) :=
  shapeCast_apply y shapeCasts_S128_S1x128 (ix2 0 j) (ix1 j)
    (by rewrite [Shape.rowMajor_val_one, Shape.rowMajor_val_two]; show j.val = 0 * 128 + j.val; omega)

theorem colRow_apply (y : S128x1.Idx → EReal) (j : Fin 128) :
    shapeCast S1x128 y shapeCasts_S128x1_S1x128 (ix2 0 j) = y (ix2 j 0) :=
  shapeCast_apply y shapeCasts_S128x1_S1x128 (ix2 0 j) (ix2 j 0)
    (by rewrite [Shape.rowMajor_val_two, Shape.rowMajor_val_two]; show j.val * 1 + 0 = 0 * 128 + j.val; omega)

theorem oneOne_apply (y : S1.Idx → EReal) :
    shapeCast S1x1 y shapeCasts_S1_S1x1 (ix2 0 0) = y (ix1 0) :=
  shapeCast_apply y shapeCasts_S1_S1x1 (ix2 0 0) (ix1 0)
    (by rewrite [Shape.rowMajor_val_one, Shape.rowMajor_val_two]; show 0 = 0 * 1 + 0; omega)

end Params

open Params

/-! ## The seven arrays at an index -/

theorem w1src_apply (k j : Fin 128) :
    (V m c main_v11 : S128x128.Idx → EReal) (ix2 k j) = aW1 m c (ix2 ⟨k.val, by omega⟩ j) :=
  (congrFun (V_main_v11 m c) (ix2 k j)).trans (rows0_apply (aW1 m c) k j)
theorem w1dst_apply (k j : Fin 128) :
    (V m c main_v12 : S128x128.Idx → EReal) (ix2 k j) = aW1 m c (ix2 ⟨128 + k.val, by omega⟩ j) :=
  (congrFun (V_main_v12 m c) (ix2 k j)).trans (rows128_apply (aW1 m c) k j)
theorem w1d0_apply (j : Fin 128) :
    (V m c main_v13 : S1x128.Idx → EReal) (ix2 0 j) = aW1 m c (ix2 ⟨256, by omega⟩ j) :=
  (congrFun (V_main_v13 m c) (ix2 0 j)).trans (row256_apply (aW1 m c) j)
theorem w1d1_apply (j : Fin 128) :
    (V m c main_v14 : S1x128.Idx → EReal) (ix2 0 j) = aW1 m c (ix2 ⟨257, by omega⟩ j) :=
  (congrFun (V_main_v14 m c) (ix2 0 j)).trans (row257_apply (aW1 m c) j)
theorem b1_apply (j : Fin 128) :
    (V m c main_v15 : S1x128.Idx → EReal) (ix2 0 j) = aB1 m c (ix1 j) :=
  (congrFun (V_main_v15 m c) (ix2 0 j)).trans (vecRow_apply (aB1 m c) j)
theorem w2_apply (j : Fin 128) :
    (V m c main_v16 : S1x128.Idx → EReal) (ix2 0 j) = aW2 m c (ix2 j 0) :=
  (congrFun (V_main_v16 m c) (ix2 0 j)).trans (colRow_apply (aW2 m c) j)
theorem b2_apply :
    (V m c main_v17 : S1x1.Idx → EReal) (ix2 0 0) = aB2 m c (ix1 0) :=
  (congrFun (V_main_v17 m c) (ix2 0 0)).trans (oneOne_apply (aB2 m c))

end Cert.KernelIdeal.Staged
end
-- ==== Proof.StagedGather.lean ====
/-
  The three gathered arrays the kernel region finds, read at an index.

  Before the region the host takes rows of the two 50000-row tables at the two rows of the index array: a negative
  index word is wrapped by the table's length, the wrapped word is the start index of a row gather (read signed and
  clamped into the table), and the gathered row is kept where the wrapped word passes the two bound tests
  `0 ≤ ·` and `· ≤ 49999`, a NaN row standing elsewhere. On the index array's evident domain (every word names a
  row) the wrap leaves the word alone and both tests pass, so the take is the table's row:
      main_v6[e, k]  = tokens[src e, k],   main_v7[e, k] = tokens[dst e, k],
      main_v10[e, a] = coords[dst e, a] - coords[src e, a].

  The host operations run in six stretches. What a stretch leaves in a buffer is read off that stretch alone, from
  the contents it was entered with; a buffer no operation of a later stretch writes keeps its contents.
-/
import proofs.«407230_j28398323761860_1_alg».proof.Proof.Gen.KernelIdeal.Frame
import proofs.«407230_j28398323761860_1_alg».proof.Proof.IndexRange
import Idealize.ShloMosaic.Lib.ValueIdx
import Idealize.ShloMosaic.Lib.Pipeline.Value
import Idealize.ShloMosaic.Lib.StableHlo.Run
import Idealize.ShloMosaic.PureOps.Reduce

noncomputable section
namespace Cert.KernelIdeal.Staged
open Idealize.ShloMosaic Idealize.ShloMosaic.TcCoe Idealize.SL.Sem Idealize.ShloMosaic.ValueIdx
open Cert.KernelIdeal Cert.KernelIdeal.Gen Cert.EdgeScore

variable (m : (ℓ : Loc nD τ sig) → Buf (Elt Ideal) ℓ) (c : Dev nD)

abbrev aT : S1x50000x128.Idx → EReal := m ((c.tc : Thread nD τ).loc main_arg0)
abbrev aC : S1x50000x2.Idx → EReal := m ((c.tc : Thread nD τ).loc main_arg1)
abbrev aE : S2x800000.Idx → BitVec 32 := m ((c.tc : Thread nD τ).loc main_arg2)

namespace Gather

/-! ## The take, as one term of the table and the index vector -/

/-- The index vector with every negative word wrapped by the table's length. -/
def wrapV (I : IVec S800000 32) : IVec S800000 32 :=
  select (cmpi .slt I (broadcastInDim S800000 ![] bcast_S_S800000 (constantI S_ 32 0#32)))
    (addi I (broadcastInDim S800000 ![] bcast_S_S800000 (constantI S_ 32 50000#32))) I

/-- The wrapped indices as a column of start indices. -/
def colV (I : IVec S800000 32) : IVec S800000x1 32 :=
  broadcastInDim S800000x1 ![0] bcast_S800000_S800000x1_0 (wrapV I)

/-- The bounds mask of the take: per row, both bound tests of the start index, reduced by `and` over the unit axis. -/
def maskV (I : IVec S800000 32) : IVec S800000 1 :=
  Host.reduce IntOp.andi
    (andi (cmpi .sge (colV I) (broadcastInDim S800000x1 ![] bcast_S_S800000x1 (constantI S_ 32 0#32)))
      (cmpi .sle (colV I) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The take of rows of the 128-column table: the gathered rows where the mask holds, the NaN splat elsewhere. -/
def take128 (T : Vec Ideal S50000x128 .f32) (I : IVec S800000 32) : Vec Ideal S800000x128 .f32 :=
  select (broadcastInDim S800000x128 ![0] bcast_S800000_S800000x128_0 (maskV I))
    (Host.gather gather_S50000x128_S800000x1_S800000x128_1_0_n_n_0_1_1128 T (colV I))
    (broadcastInDim S800000x128 ![] bcast_S_S800000x128 (constant (F := Ideal) S_ .f32 0x7FC00000#32))

/-- The take of rows of the 2-column table. -/
def take2 (T : Vec Ideal S50000x2 .f32) (I : IVec S800000 32) : Vec Ideal S800000x2 .f32 :=
  select (broadcastInDim S800000x2 ![0] bcast_S800000_S800000x2_0 (maskV I))
    (Host.gather gather_S50000x2_S800000x1_S800000x2_1_0_n_n_0_1_12 T (colV I))
    (broadcastInDim S800000x2 ![] bcast_S_S800000x2 (constant (F := Ideal) S_ .f32 0x7FC00000#32))

/-- The difference of two 2-column arrays, entry by entry. -/
def sub2 (A B : FVec Ideal S800000x2 .f32) : FVec Ideal S800000x2 .f32 := subf (F := Ideal) (s := S800000x2) (φ := .f32) A B

/-- The difference at an index is the difference of the entries. -/
theorem sub2_apply (A B : FVec Ideal S800000x2 .f32) (i : S800000x2.Idx) : sub2 A B i = A i - B i :=
  subf_apply A B i

/-- The token table as 50000 rows. -/
def tabT : Vec Ideal S50000x128 .f32 := shapeCast S50000x128 (aT m c) shapeCasts_S1x50000x128_S50000x128
/-- The coordinate table as 50000 rows. -/
def tabC : Vec Ideal S50000x2 .f32 := shapeCast S50000x2 (aC m c) shapeCasts_S1x50000x2_S50000x2
/-- Row 0 of the index array (the source ends) as a vector. -/
def rowE0 : IVec S800000 32 :=
  shapeCast S800000 (extractStridedSlice S1x800000 ![0, 0] (aE m c) slices_S2x800000_S1x800000_0_0) shapeCasts_S1x800000_S800000
/-- Row 1 of the index array (the destination ends) as a vector. -/
def rowE1 : IVec S800000 32 :=
  shapeCast S800000 (extractStridedSlice S1x800000 ![1, 0] (aE m c) slices_S2x800000_S1x800000_1_0) shapeCasts_S1x800000_S800000

/-! ## The six stretches one after the other -/

/-- The contents after two lines run one after the other are the second's over the first's. -/
theorem after_append {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => exact ih (op.result W)

/-- What the region finds in a buffer: the six stretches run in order from the launch contents. -/
theorem V_split (b : Ref sig .tc) :
    V m c b = StableHlo.after (hostOps0_5 (F := Ideal)) (StableHlo.after hostOps0_4 (StableHlo.after hostOps0_3
      (StableHlo.after hostOps0_2 (StableHlo.after hostOps0_1 (StableHlo.after hostOps0 (fun b => m (c, b)))))))
        (Proc.devRef .tc b) := by
  show StableHlo.after (List.flatten [hostOps0 (F := Ideal), hostOps0_1, hostOps0_2, hostOps0_3, hostOps0_4, hostOps0_5])
    (fun b => m (c, b)) (Proc.devRef .tc b) = _
  rw [show List.flatten [hostOps0 (F := Ideal), hostOps0_1, hostOps0_2, hostOps0_3, hostOps0_4, hostOps0_5]
      = hostOps0 ++ (hostOps0_1 ++ (hostOps0_2 ++ (hostOps0_3 ++ (hostOps0_4 ++ hostOps0_5)))) from by
    simp only [List.flatten_cons, List.flatten_nil, List.append_nil]]
  rw [after_append, after_append, after_append, after_append, after_append]

/-! ## Each stretch's result, from the contents it is entered with -/

/-- Contents carried to a buffer's own type and back are the contents. -/
theorem ofBuf_toBuf {Val : EltTy → Type} {T : BufTy} (x : StableHlo.TRef sig T) (v : T.Contents Val) :
    x.ofBuf (x.toBuf v) = v := by
  obtain ⟨r, h, h2, h3⟩ := x
  subst h
  rfl

set_option maxRecDepth 16384 in
theorem stage0_v0 : (StableHlo.after (hostOps0 (F := Ideal)) (fun b => m (c, b)) (Proc.devRef .tc main_v0)
    : S50000x128.Idx → EReal) = tabT m c := by
  dsimp only [Gen.hostOps0]
  after_results_simp
  rfl
set_option maxRecDepth 16384 in
theorem stage0_v1 : (StableHlo.after (hostOps0 (F := Ideal)) (fun b => m (c, b)) (Proc.devRef .tc main_v1)
    : S50000x2.Idx → EReal) = tabC m c := by
  dsimp only [Gen.hostOps0]
  after_results_simp
  rfl
set_option maxRecDepth 16384 in
theorem stage0_v3 : (StableHlo.after (hostOps0 (F := Ideal)) (fun b => m (c, b)) (Proc.devRef .tc main_v3)
    : S800000.Idx → BitVec 32) = rowE0 m c := by
  dsimp only [Gen.hostOps0]
  after_results_simp
  rfl
set_option maxRecDepth 16384 in
theorem stage0_v5 : (StableHlo.after (hostOps0 (F := Ideal)) (fun b => m (c, b)) (Proc.devRef .tc main_v5)
    : S800000.Idx → BitVec 32) = rowE1 m c := by
  dsimp only [Gen.hostOps0]
  after_results_simp
  rfl

set_option maxRecDepth 16384 in
set_option maxHeartbeats 1600000 in
theorem stage1 (W : Valuation τ sig (Elt Ideal)) :
    (StableHlo.after (hostOps0_1 (F := Ideal)) W (Proc.devRef .tc main_v6) : S800000x128.Idx → EReal)
      = take128 (W (Proc.devRef .tc main_v0)) (W (Proc.devRef .tc main_v3)) := by
  dsimp only [Gen.hostOps0_1]
  after_results_simp
  simp only [ofBuf_toBuf]
  refine (cast_eq _ _).trans ?_
  rfl
set_option maxRecDepth 16384 in
set_option maxHeartbeats 1600000 in
theorem stage2 (W : Valuation τ sig (Elt Ideal)) :
    (StableHlo.after (hostOps0_2 (F := Ideal)) W (Proc.devRef .tc main_v7) : S800000x128.Idx → EReal)
      = take128 (W (Proc.devRef .tc main_v0)) (W (Proc.devRef .tc main_v5)) := by
  dsimp only [Gen.hostOps0_2]
  after_results_simp
  simp only [ofBuf_toBuf]
  refine (cast_eq _ _).trans ?_
  rfl
set_option maxRecDepth 16384 in
set_option maxHeartbeats 1600000 in
theorem stage3 (W : Valuation τ sig (Elt Ideal)) :
    (StableHlo.after (hostOps0_3 (F := Ideal)) W (Proc.devRef .tc main_v8) : S800000x2.Idx → EReal)
      = take2 (W (Proc.devRef .tc main_v1)) (W (Proc.devRef .tc main_v3)) := by
  dsimp only [Gen.hostOps0_3]
  after_results_simp
  simp only [ofBuf_toBuf]
  refine (cast_eq _ _).trans ?_
  rfl
set_option maxRecDepth 16384 in
set_option maxHeartbeats 1600000 in
theorem stage4 (W : Valuation τ sig (Elt Ideal)) :
    (StableHlo.after (hostOps0_4 (F := Ideal)) W (Proc.devRef .tc main_v9) : S800000x2.Idx → EReal)
      = take2 (W (Proc.devRef .tc main_v1)) (W (Proc.devRef .tc main_v5)) := by
  dsimp only [Gen.hostOps0_4]
  after_results_simp
  simp only [ofBuf_toBuf]
  refine (cast_eq _ _).trans ?_
  rfl
set_option maxRecDepth 16384 in
set_option maxHeartbeats 1600000 in
theorem stage5 (W : Valuation τ sig (Elt Ideal)) :
    (StableHlo.after (hostOps0_5 (F := Ideal)) W (Proc.devRef .tc main_v10) : S800000x2.Idx → EReal)
      = sub2 (W (Proc.devRef .tc main_v9)) (W (Proc.devRef .tc main_v8)) := by
  dsimp only [Gen.hostOps0_5]
  after_results_simp
  rfl

/-! ## Buffers a stretch leaves alone: none of its operations writes them -/

theorem keep5_v6 (W : Valuation τ sig (Elt Ideal)) :
    StableHlo.after (hostOps0_5 (F := Ideal)) W (Proc.devRef .tc main_v6) = W (Proc.devRef .tc main_v6) := by
  refine StableHlo.after_of_forall_not_mem _ _ (List.forall_iff_forall_mem.mp ?_)
  simp only [Gen.hostOps0_5, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

theorem keep4_v6 (W : Valuation τ sig (Elt Ideal)) :
    StableHlo.after (hostOps0_4 (F := Ideal)) W (Proc.devRef .tc main_v6) = W (Proc.devRef .tc main_v6) := by
  refine StableHlo.after_of_forall_not_mem _ _ (List.forall_iff_forall_mem.mp ?_)
  simp only [Gen.hostOps0_4, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

theorem keep3_v6 (W : Valuation τ sig (Elt Ideal)) :
    StableHlo.after (hostOps0_3 (F := Ideal)) W (Proc.devRef .tc main_v6) = W (Proc.devRef .tc main_v6) := by
  refine StableHlo.after_of_forall_not_mem _ _ (List.forall_iff_forall_mem.mp ?_)
  simp only [Gen.hostOps0_3, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

theorem keep2_v6 (W : Valuation τ sig (Elt Ideal)) :
    StableHlo.after (hostOps0_2 (F := Ideal)) W (Proc.devRef .tc main_v6) = W (Proc.devRef .tc main_v6) := by
  refine StableHlo.after_of_forall_not_mem _ _ (List.forall_iff_forall_mem.mp ?_)
  simp only [Gen.hostOps0_2, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

theorem keep5_v7 (W : Valuation τ sig (Elt Ideal)) :
    StableHlo.after (hostOps0_5 (F := Ideal)) W (Proc.devRef .tc main_v7) = W (Proc.devRef .tc main_v7) := by
  refine StableHlo.after_of_forall_not_mem _ _ (List.forall_iff_forall_mem.mp ?_)
  simp only [Gen.hostOps0_5, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

theorem keep4_v7 (W : Valuation τ sig (Elt Ideal)) :
    StableHlo.after (hostOps0_4 (F := Ideal)) W (Proc.devRef .tc main_v7) = W (Proc.devRef .tc main_v7) := by
  refine StableHlo.after_of_forall_not_mem _ _ (List.forall_iff_forall_mem.mp ?_)
  simp only [Gen.hostOps0_4, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

theorem keep3_v7 (W : Valuation τ sig (Elt Ideal)) :
    StableHlo.after (hostOps0_3 (F := Ideal)) W (Proc.devRef .tc main_v7) = W (Proc.devRef .tc main_v7) := by
  refine StableHlo.after_of_forall_not_mem _ _ (List.forall_iff_forall_mem.mp ?_)
  simp only [Gen.hostOps0_3, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

theorem keep1_v0 (W : Valuation τ sig (Elt Ideal)) :
    StableHlo.after (hostOps0_1 (F := Ideal)) W (Proc.devRef .tc main_v0) = W (Proc.devRef .tc main_v0) := by
  refine StableHlo.after_of_forall_not_mem _ _ (List.forall_iff_forall_mem.mp ?_)
  simp only [Gen.hostOps0_1, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

theorem keep1_v5 (W : Valuation τ sig (Elt Ideal)) :
    StableHlo.after (hostOps0_1 (F := Ideal)) W (Proc.devRef .tc main_v5) = W (Proc.devRef .tc main_v5) := by
  refine StableHlo.after_of_forall_not_mem _ _ (List.forall_iff_forall_mem.mp ?_)
  simp only [Gen.hostOps0_1, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

theorem keep1_v1 (W : Valuation τ sig (Elt Ideal)) :
    StableHlo.after (hostOps0_1 (F := Ideal)) W (Proc.devRef .tc main_v1) = W (Proc.devRef .tc main_v1) := by
  refine StableHlo.after_of_forall_not_mem _ _ (List.forall_iff_forall_mem.mp ?_)
  simp only [Gen.hostOps0_1, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

theorem keep1_v3 (W : Valuation τ sig (Elt Ideal)) :
    StableHlo.after (hostOps0_1 (F := Ideal)) W (Proc.devRef .tc main_v3) = W (Proc.devRef .tc main_v3) := by
  refine StableHlo.after_of_forall_not_mem _ _ (List.forall_iff_forall_mem.mp ?_)
  simp only [Gen.hostOps0_1, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

theorem keep2_v1 (W : Valuation τ sig (Elt Ideal)) :
    StableHlo.after (hostOps0_2 (F := Ideal)) W (Proc.devRef .tc main_v1) = W (Proc.devRef .tc main_v1) := by
  refine StableHlo.after_of_forall_not_mem _ _ (List.forall_iff_forall_mem.mp ?_)
  simp only [Gen.hostOps0_2, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

theorem keep2_v3 (W : Valuation τ sig (Elt Ideal)) :
    StableHlo.after (hostOps0_2 (F := Ideal)) W (Proc.devRef .tc main_v3) = W (Proc.devRef .tc main_v3) := by
  refine StableHlo.after_of_forall_not_mem _ _ (List.forall_iff_forall_mem.mp ?_)
  simp only [Gen.hostOps0_2, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

theorem keep2_v5 (W : Valuation τ sig (Elt Ideal)) :
    StableHlo.after (hostOps0_2 (F := Ideal)) W (Proc.devRef .tc main_v5) = W (Proc.devRef .tc main_v5) := by
  refine StableHlo.after_of_forall_not_mem _ _ (List.forall_iff_forall_mem.mp ?_)
  simp only [Gen.hostOps0_2, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

theorem keep3_v1 (W : Valuation τ sig (Elt Ideal)) :
    StableHlo.after (hostOps0_3 (F := Ideal)) W (Proc.devRef .tc main_v1) = W (Proc.devRef .tc main_v1) := by
  refine StableHlo.after_of_forall_not_mem _ _ (List.forall_iff_forall_mem.mp ?_)
  simp only [Gen.hostOps0_3, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

theorem keep3_v5 (W : Valuation τ sig (Elt Ideal)) :
    StableHlo.after (hostOps0_3 (F := Ideal)) W (Proc.devRef .tc main_v5) = W (Proc.devRef .tc main_v5) := by
  refine StableHlo.after_of_forall_not_mem _ _ (List.forall_iff_forall_mem.mp ?_)
  simp only [Gen.hostOps0_3, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

theorem keep4_v8 (W : Valuation τ sig (Elt Ideal)) :
    StableHlo.after (hostOps0_4 (F := Ideal)) W (Proc.devRef .tc main_v8) = W (Proc.devRef .tc main_v8) := by
  refine StableHlo.after_of_forall_not_mem _ _ (List.forall_iff_forall_mem.mp ?_)
  simp only [Gen.hostOps0_4, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)

end Gather

namespace Gather

/-! ## The row gather of a rank-2 table, read at an index -/

section Rows
variable {α : Type}

/-- The dimension numbers of `table[idx]` over a table `[N, C]` and a column `[n, 1]` of start indices: the row axis
    collapsed and start-indexed, the column axis the one offset axis, the index vector on axis 1. -/
abbrev rowsDims (N n C : Nat) (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Result element `(e, k)` is the table at row `idx[e, 0]`, read signed and clamped into `[0, N - 1]`, and column `k`:
    on the row axis the clamped start index (no batching, the axis collapsed), on the column axis the result's own
    offset coordinate (no start index there). -/
theorem gather_rows_apply {N n C w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (e : Fin n) (k : Fin C) :
    Host.gather (rowsDims N n C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowsDims N n C wf).start (ix2 e k) idx 0 + (rowsDims N n C wf).batchCoord (ix2 e k) 0
        + (rowsDims N n C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N n C wf).startIndexMap from List.mem_singleton.mpr rfl)]
    have hsi : (rowsDims N n C wf).siIdx (ix2 e k) ⟨List.idxOf (0 : Fin 2) (rowsDims N n C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N n C wf).start (ix2 e k) idx 1 + (rowsDims N n C wf).batchCoord (ix2 e k) 1
        + (rowsDims N n C wf).offCoord (ix2 e k) 1 = k.val
    rw [GatherDims.batchCoord_eq_zero _ _ _ List.not_mem_nil]
    unfold GatherDims.start
    have hns : (1 : Fin 2) ∉ (rowsDims N n C wf).startIndexMap := by
      show (1 : Fin 2) ∉ [(0 : Fin 2)]
      decide
    rw [dif_neg hns]
    have hnc : (1 : Fin 2) ∉ (rowsDims N n C wf).collapsedSliceDims := by
      show (1 : Fin 2) ∉ [(0 : Fin 2)]
      decide
    have hk : (1 : Fin 2) ∈ (rowsDims N n C wf).sKept :=
      (GatherDims.mem_sKept _ _).mpr ⟨hnc, List.not_mem_nil⟩
    unfold GatherDims.offCoord
    rw [dif_pos hk]
    simp only [Nat.zero_add]
    rfl

end Rows

/-! ## The take at an index, on the index vector's evident domain -/

/-- The wrapped vector at a position is the wrap of the word there. -/
theorem wrapV_apply (I : IVec S800000 32) (e : Fin 800000) : wrapV I (ix1 e) = wrap (I (ix1 e)) := rfl

/-- Row `e` of the column of start indices is the wrapped word at `e`. -/
theorem colV_apply (I : IVec S800000 32) (e : Fin 800000) : colV I (ix2 e 0) = wrap (I (ix1 e)) := by
  unfold colV
  refine (broadcastInDim_apply _ _ (wrapV I) (ix2 e 0) (ix1 e) ?_).trans (wrapV_apply I e)
  intro a
  obtain rfl : a = 0 := Subsingleton.elim _ _
  show e.val = if (800000 : Nat) = 1 then 0 else e.val
  rw [if_neg (by decide)]

/-- For a word that names a row the bounds mask holds: the one term of the reduction over the unit axis is the
    conjunction of the two bound tests of the (unwrapped) word, both passed. -/
theorem maskV_apply (I : IVec S800000 32) (e : Fin 800000)
    (h0 : IntOp.cmpi .sge (I (ix1 e)) 0#32 = 1#1) (h1 : IntOp.cmpi .slt (I (ix1 e)) 50000#32 = 1#1) :
    maskV I (ix1 e) = 1#1 := by
  unfold maskV
  rw [Host.reduce_eq_foldl]
  refine foldl_andi_ones _ _ ?_
  intro n hn
  have hd : reducesTo_S800000x1_S800000_d1.drop n = ix1 e := of_decide_eq_true (List.mem_filter.mp hn).2
  have hn0 : n 0 = e := by
    refine Fin.ext ?_
    rw [← Shape.ReducesTo.drop_apply_val_of_eq reducesTo_S800000x1_S800000_d1 n 0 0, hd]
  have hne : n = ix2 e 0 := by
    funext a
    match a with
    | ⟨0, _⟩ => exact hn0
    | ⟨1, _⟩ => exact Subsingleton.elim (α := Fin 1) _ _
  rw [hne]
  show IntOp.andi (IntOp.cmpi .sge (colV I (ix2 e 0)) 0#32) (IntOp.cmpi .sle (colV I (ix2 e 0)) 49999#32) = 1#1
  rw [colV_apply, wrap_sge_zero h0, wrap_sle_last h0 h1]
  rfl

/-- The take of the 128-column table at `(e, k)`, for an index word that names a row: that row's column `k`. -/
theorem take128_apply (T : Vec Ideal S50000x128 .f32) (I : IVec S800000 32) (e : Fin 800000) (k : Fin 128)
    (h0 : IntOp.cmpi .sge (I (ix1 e)) 0#32 = 1#1) (h1 : IntOp.cmpi .slt (I (ix1 e)) 50000#32 = 1#1) :
    take128 T I (ix2 e k) = T (ix2 (row (wrap (I (ix1 e)))) k) := by
  unfold take128
  rw [select_apply]
  have hm : broadcastInDim S800000x128 ![0] bcast_S800000_S800000x128_0 (maskV I) (ix2 e k) = 1#1 := by
    refine (broadcastInDim_apply _ _ (maskV I) (ix2 e k) (ix1 e) ?_).trans (maskV_apply I e h0 h1)
    intro a
    obtain rfl : a = 0 := Subsingleton.elim _ _
    show e.val = if (800000 : Nat) = 1 then 0 else e.val
    rw [if_neg (by decide)]
  rw [hm, select_one]
  refine (gather_rows_apply (N := 50000) (n := 800000) (C := 128) (by decide)
    gather_S50000x128_S800000x1_S800000x128_1_0_n_n_0_1_1128_wf T (colV I) e k).trans ?_
  refine congrArg T (congrArg (fun r : Fin 50000 => (ix2 r k : S50000x128.Idx)) (Fin.ext ?_))
  show min (colV I (ix2 e 0)).toInt.toNat 49999 = min (wrap (I (ix1 e))).toInt.toNat 49999
  rw [colV_apply]

/-- The take of the 2-column table at `(e, a)`, for an index word that names a row: that row's column `a`. -/
theorem take2_apply (T : Vec Ideal S50000x2 .f32) (I : IVec S800000 32) (e : Fin 800000) (a : Fin 2)
    (h0 : IntOp.cmpi .sge (I (ix1 e)) 0#32 = 1#1) (h1 : IntOp.cmpi .slt (I (ix1 e)) 50000#32 = 1#1) :
    take2 T I (ix2 e a) = T (ix2 (row (wrap (I (ix1 e)))) a) := by
  unfold take2
  rw [select_apply]
  have hm : broadcastInDim S800000x2 ![0] bcast_S800000_S800000x2_0 (maskV I) (ix2 e a) = 1#1 := by
    refine (broadcastInDim_apply _ _ (maskV I) (ix2 e a) (ix1 e) ?_).trans (maskV_apply I e h0 h1)
    intro b
    obtain rfl : b = 0 := Subsingleton.elim _ _
    show e.val = if (800000 : Nat) = 1 then 0 else e.val
    rw [if_neg (by decide)]
  rw [hm, select_one]
  refine (gather_rows_apply (N := 50000) (n := 800000) (C := 2) (by decide)
    gather_S50000x2_S800000x1_S800000x2_1_0_n_n_0_1_12_wf T (colV I) e a).trans ?_
  refine congrArg T (congrArg (fun r : Fin 50000 => (ix2 r a : S50000x2.Idx)) (Fin.ext ?_))
  show min (colV I (ix2 e 0)).toInt.toNat 49999 = min (wrap (I (ix1 e))).toInt.toNat 49999
  rw [colV_apply]

/-! ## The reshaped arguments at an index -/

/-- Row `r`, column `k` of the token table as rows is the argument at `[0, r, k]`. -/
theorem tabT_apply (r : Fin 50000) (k : Fin 128) : tabT m c (ix2 r k) = aT m c (ix3 0 r k) := by
  unfold tabT
  refine shapeCast_apply (aT m c) _ (ix2 r k) (ix3 0 r k) ?_
  rw [Shape.rowMajor_val_three, Shape.rowMajor_val_two]
  show ((0 : Nat) * 50000 + r.val) * 128 + k.val = r.val * 128 + k.val
  omega

/-- Row `r`, column `a` of the coordinate table as rows is the argument at `[0, r, a]`. -/
theorem tabC_apply (r : Fin 50000) (a : Fin 2) : tabC m c (ix2 r a) = aC m c (ix3 0 r a) := by
  unfold tabC
  refine shapeCast_apply (aC m c) _ (ix2 r a) (ix3 0 r a) ?_
  rw [Shape.rowMajor_val_three, Shape.rowMajor_val_two]
  show ((0 : Nat) * 50000 + r.val) * 2 + a.val = r.val * 2 + a.val
  omega

/-- Position `e` of row 0 of the index array. -/
theorem rowE0_apply (e : Fin 800000) : rowE0 m c (ix1 e) = aE m c (ix2 0 e) := by
  unfold rowE0
  refine (shapeCast_apply _ _ (ix1 e) (ix2 (0 : Fin 1) e) ?_).trans ?_
  · rw [Shape.rowMajor_val_two, Shape.rowMajor_val_one]
    show (0 : Nat) * 800000 + e.val = e.val
    omega
  · refine extractStridedSlice_apply _ (aE m c) _ (ix2 (0 : Fin 1) e) (ix2 0 e) ?_
    intro a
    match a with
    | ⟨0, _⟩ => rfl
    | ⟨1, _⟩ => exact (Nat.zero_add _).symm

/-- Position `e` of row 1 of the index array. -/
theorem rowE1_apply (e : Fin 800000) : rowE1 m c (ix1 e) = aE m c (ix2 1 e) := by
  unfold rowE1
  refine (shapeCast_apply _ _ (ix1 e) (ix2 (0 : Fin 1) e) ?_).trans ?_
  · rw [Shape.rowMajor_val_two, Shape.rowMajor_val_one]
    show (0 : Nat) * 800000 + e.val = e.val
    omega
  · refine extractStridedSlice_apply _ (aE m c) _ (ix2 (0 : Fin 1) e) (ix2 1 e) ?_
    intro a
    match a with
    | ⟨0, _⟩ => rfl
    | ⟨1, _⟩ => exact (Nat.zero_add _).symm

end Gather

namespace Gather

/-! ## The three arrays as the region finds them -/

/-- `main_v6`: the take of the token rows at the source ends. Written by the first take; the later stretches leave it. -/
theorem v6_eq : (V m c main_v6 : S800000x128.Idx → EReal) = take128 (tabT m c) (rowE0 m c) := by
  refine (V_split m c main_v6).trans ?_
  refine (keep5_v6 _).trans ((keep4_v6 _).trans ((keep3_v6 _).trans ((keep2_v6 _).trans ((stage1 _).trans ?_))))
  rw [stage0_v0, stage0_v3]

/-- `main_v7`: the take of the token rows at the destination ends. The first take leaves its two operands. -/
theorem v7_eq : (V m c main_v7 : S800000x128.Idx → EReal) = take128 (tabT m c) (rowE1 m c) := by
  refine (V_split m c main_v7).trans ?_
  refine (keep5_v7 _).trans ((keep4_v7 _).trans ((keep3_v7 _).trans ((stage2 _).trans ?_)))
  rw [keep1_v0, keep1_v5, stage0_v0, stage0_v5]

/-- `main_v10`: the coordinate rows at the destination ends minus those at the source ends. -/
theorem v10_eq : (V m c main_v10 : S800000x2.Idx → EReal)
    = sub2 (take2 (tabC m c) (rowE1 m c)) (take2 (tabC m c) (rowE0 m c)) := by
  refine (V_split m c main_v10).trans ?_
  refine (stage5 _).trans ?_
  rw [stage4, keep4_v8, stage3, keep3_v1, keep3_v5, keep2_v1, keep2_v5, keep2_v3, keep1_v1, keep1_v5, keep1_v3,
    stage0_v1, stage0_v5, stage0_v3]

end Gather

/-! ## The interface: each array at an index, on the index array's evident domain -/

theorem xsrc_apply (h : InRange (aE m c)) (e : Fin 800000) (k : Fin 128) :
    (V m c main_v6 : S800000x128.Idx → EReal) (ix2 e k) = aT m c (ix3 0 (src (aE m c) e) k) := by
  have hE : Gather.rowE0 m c (ix1 e) = aE m c (ix2 0 e) := Gather.rowE0_apply m c e
  have h0 : IntOp.cmpi .sge (Gather.rowE0 m c (ix1 e)) 0#32 = 1#1 := by rw [hE]; exact (h _).1
  have h1 : IntOp.cmpi .slt (Gather.rowE0 m c (ix1 e)) 50000#32 = 1#1 := by rw [hE]; exact (h _).2
  refine (congrFun (Gather.v6_eq m c) (ix2 e k)).trans ?_
  refine (Gather.take128_apply _ _ e k h0 h1).trans ?_
  rw [hE]
  exact Gather.tabT_apply m c _ k

theorem xdst_apply (h : InRange (aE m c)) (e : Fin 800000) (k : Fin 128) :
    (V m c main_v7 : S800000x128.Idx → EReal) (ix2 e k) = aT m c (ix3 0 (dst (aE m c) e) k) := by
  have hE : Gather.rowE1 m c (ix1 e) = aE m c (ix2 1 e) := Gather.rowE1_apply m c e
  have h0 : IntOp.cmpi .sge (Gather.rowE1 m c (ix1 e)) 0#32 = 1#1 := by rw [hE]; exact (h _).1
  have h1 : IntOp.cmpi .slt (Gather.rowE1 m c (ix1 e)) 50000#32 = 1#1 := by rw [hE]; exact (h _).2
  refine (congrFun (Gather.v7_eq m c) (ix2 e k)).trans ?_
  refine (Gather.take128_apply _ _ e k h0 h1).trans ?_
  rw [hE]
  exact Gather.tabT_apply m c _ k

theorem delta_apply (h : InRange (aE m c)) (e : Fin 800000) (a : Fin 2) :
    (V m c main_v10 : S800000x2.Idx → EReal) (ix2 e a) = delta (aC m c) (aE m c) e a := by
  have hE0 : Gather.rowE0 m c (ix1 e) = aE m c (ix2 0 e) := Gather.rowE0_apply m c e
  have hE1 : Gather.rowE1 m c (ix1 e) = aE m c (ix2 1 e) := Gather.rowE1_apply m c e
  have h00 : IntOp.cmpi .sge (Gather.rowE0 m c (ix1 e)) 0#32 = 1#1 := by rw [hE0]; exact (h _).1
  have h01 : IntOp.cmpi .slt (Gather.rowE0 m c (ix1 e)) 50000#32 = 1#1 := by rw [hE0]; exact (h _).2
  have h10 : IntOp.cmpi .sge (Gather.rowE1 m c (ix1 e)) 0#32 = 1#1 := by rw [hE1]; exact (h _).1
  have h11 : IntOp.cmpi .slt (Gather.rowE1 m c (ix1 e)) 50000#32 = 1#1 := by rw [hE1]; exact (h _).2
  refine (congrFun (Gather.v10_eq m c) (ix2 e a)).trans ?_
  rw [Gather.sub2_apply, Gather.take2_apply _ _ e a h10 h11, Gather.take2_apply _ _ e a h00 h01, hE0, hE1,
    Gather.tabC_apply, Gather.tabC_apply]
  rfl

end Cert.KernelIdeal.Staged
end
-- ==== Proof.ScoreArray.lean ====
/-
  The kernel's result array is the array of edge scores.

  The kernel's region runs over 250 grid points; point `t` reads rows `3200 t … 3200 t + 3199` of the three edge-blocked
  arrays (gathered source tokens, gathered destination tokens, coordinate differences), the whole of the seven parameter
  arrays, and writes rows `3200 t … 3200 t + 3199` of the `[800000, 1]` output. The printed index maps are decided once
  over the grid; a block's element at row `r` then sits at row `3200 t + r` of its array. The body's stored block at row
  `r` is the score of edge `3200 t + r` (the block lemma, over the staged arrays read at an index), so what point `t` writes
  back is block `t` of the array of scores; every row lies in the block of point `row / 3200`, so after the region the
  output array IS the array of scores. The one host operation after the region reshapes it to `[1, 800000, 1]`.
  Everything up to the last step is stated over ARBITRARY staged arrays, so that the host operations before the region
  are met only through the index lemmas that read them.
-/
import proofs.«407230_j28398323761860_1_alg».proof.Proof.Gen.KernelIdeal.Frame
import proofs.«407230_j28398323761860_1_alg».proof.Proof.IndexRange
import proofs.«407230_j28398323761860_1_alg».proof.Proof.BlockScore
import proofs.«407230_j28398323761860_1_alg».proof.Proof.StagedParams
import proofs.«407230_j28398323761860_1_alg».proof.Proof.StagedGather
import Idealize.ShloMosaic.Lib.Pipeline.Value
import Idealize.ShloMosaic.Lib.StableHlo.Run
noncomputable section
namespace Cert.KernelIdeal.ScoreArray
open Idealize.ShloMosaic Idealize.ShloMosaic.TcCoe Idealize.SL.Sem Idealize.ShloMosaic.ValueIdx
open Cert.KernelIdeal Cert.KernelIdeal.Gen Cert.EdgeScore Cert.KernelIdeal.BlockScore
open Idealize.ShloMosaic.Pipeline (Dat)

/-- The grid has 250 points; point `t` handles the 3200 edges `3200 t, …, 3200 t + 3199`. -/
def edge (t : Fin cfg0.N) (r : Fin 3200) : Fin 800000 :=
  ⟨t.val * 3200 + r.val, by have h1 := t.isLt; have h2 : cfg0.N = 250 := N_0; have h3 := r.isLt; omega⟩

/-! ## The printed index maps, decided over the grid

The three edge-blocked inputs and the output sit at block row `t`, block column 0; the seven parameter windows stay at
block (0, 0). -/

theorem idx_edge : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_10.index t (0 : Fin 2) = t.val ∧ win0_10.index t (1 : Fin 2) = 0 :=
  (by decide +kernel : ∀ t : Fin grid0.N, _)

theorem idx_param : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-! ## Where a block's element sits in its array -/

theorem emb0 (t : Fin cfg0.N) (r : Fin 3200) (k : Fin 128) :
    ((cfg0.win 0).blk t).view.emb (ix2 r k) = ix2 (edge t r) k := by
  obtain ⟨e0, e1, -⟩ := idx_edge t
  funext a; apply Fin.ext
  match a with
  | ⟨0, _⟩ => show win0_0.index t (0 : Fin 2) * 3200 + 1 * r.val = t.val * 3200 + r.val; omega
  | ⟨1, _⟩ => show win0_0.index t (1 : Fin 2) * 128 + 1 * k.val = k.val; omega

theorem emb1 (t : Fin cfg0.N) (r : Fin 3200) (k : Fin 128) :
    ((cfg0.win 1).blk t).view.emb (ix2 r k) = ix2 (edge t r) k := by
  obtain ⟨-, -, e0, e1, -⟩ := idx_edge t
  funext a; apply Fin.ext
  match a with
  | ⟨0, _⟩ => show win0_1.index t (0 : Fin 2) * 3200 + 1 * r.val = t.val * 3200 + r.val; omega
  | ⟨1, _⟩ => show win0_1.index t (1 : Fin 2) * 128 + 1 * k.val = k.val; omega

theorem emb2 (t : Fin cfg0.N) (r : Fin 3200) (a : Fin 2) :
    ((cfg0.win 2).blk t).view.emb (ix2 r a) = ix2 (edge t r) a := by
  obtain ⟨-, -, -, -, e0, e1, -⟩ := idx_edge t
  funext b; apply Fin.ext
  match b with
  | ⟨0, _⟩ => show win0_2.index t (0 : Fin 2) * 3200 + 1 * r.val = t.val * 3200 + r.val; omega
  | ⟨1, _⟩ => show win0_2.index t (1 : Fin 2) * 2 + 1 * a.val = a.val; omega

theorem emb10 (t : Fin cfg0.N) (r : Fin 3200) :
    ((cfg0.win 10).blk t).view.emb (ix2 r (0 : Fin 1)) = ix2 (edge t r) (0 : Fin 1) := by
  obtain ⟨-, -, -, -, -, -, e0, e1⟩ := idx_edge t
  funext b; apply Fin.ext
  match b with
  | ⟨0, _⟩ => show win0_10.index t (0 : Fin 2) * 3200 + 1 * r.val = t.val * 3200 + r.val; omega
  | ⟨1, _⟩ => show win0_10.index t (1 : Fin 2) * 1 + 1 * 0 = 0; omega

theorem emb3 (t : Fin cfg0.N) (k j : Fin 128) : ((cfg0.win 3).blk t).view.emb (ix2 k j) = ix2 k j := by
  obtain ⟨e0, e1, -⟩ := idx_param t
  funext b; apply Fin.ext
  match b with
  | ⟨0, _⟩ => show win0_3.index t (0 : Fin 2) * 128 + 1 * k.val = k.val; omega
  | ⟨1, _⟩ => show win0_3.index t (1 : Fin 2) * 128 + 1 * j.val = j.val; omega

theorem emb4 (t : Fin cfg0.N) (k j : Fin 128) : ((cfg0.win 4).blk t).view.emb (ix2 k j) = ix2 k j := by
  obtain ⟨-, -, e0, e1, -⟩ := idx_param t
  funext b; apply Fin.ext
  match b with
  | ⟨0, _⟩ => show win0_4.index t (0 : Fin 2) * 128 + 1 * k.val = k.val; omega
  | ⟨1, _⟩ => show win0_4.index t (1 : Fin 2) * 128 + 1 * j.val = j.val; omega

theorem emb5 (t : Fin cfg0.N) (j : Fin 128) : ((cfg0.win 5).blk t).view.emb (ix2 (0 : Fin 1) j) = ix2 (0 : Fin 1) j := by
  obtain ⟨-, -, -, -, e0, e1, -⟩ := idx_param t
  funext b; apply Fin.ext
  match b with
  | ⟨0, _⟩ => show win0_5.index t (0 : Fin 2) * 1 + 1 * 0 = 0; omega
  | ⟨1, _⟩ => show win0_5.index t (1 : Fin 2) * 128 + 1 * j.val = j.val; omega

theorem emb6 (t : Fin cfg0.N) (j : Fin 128) : ((cfg0.win 6).blk t).view.emb (ix2 (0 : Fin 1) j) = ix2 (0 : Fin 1) j := by
  obtain ⟨-, -, -, -, -, -, e0, e1, -⟩ := idx_param t
  funext b; apply Fin.ext
  match b with
  | ⟨0, _⟩ => show win0_6.index t (0 : Fin 2) * 1 + 1 * 0 = 0; omega
  | ⟨1, _⟩ => show win0_6.index t (1 : Fin 2) * 128 + 1 * j.val = j.val; omega

theorem emb7 (t : Fin cfg0.N) (j : Fin 128) : ((cfg0.win 7).blk t).view.emb (ix2 (0 : Fin 1) j) = ix2 (0 : Fin 1) j := by
  obtain ⟨-, -, -, -, -, -, -, -, e0, e1, -⟩ := idx_param t
  funext b; apply Fin.ext
  match b with
  | ⟨0, _⟩ => show win0_7.index t (0 : Fin 2) * 1 + 1 * 0 = 0; omega
  | ⟨1, _⟩ => show win0_7.index t (1 : Fin 2) * 128 + 1 * j.val = j.val; omega

theorem emb8 (t : Fin cfg0.N) (j : Fin 128) : ((cfg0.win 8).blk t).view.emb (ix2 (0 : Fin 1) j) = ix2 (0 : Fin 1) j := by
  obtain ⟨-, -, -, -, -, -, -, -, -, -, e0, e1, -⟩ := idx_param t
  funext b; apply Fin.ext
  match b with
  | ⟨0, _⟩ => show win0_8.index t (0 : Fin 2) * 1 + 1 * 0 = 0; omega
  | ⟨1, _⟩ => show win0_8.index t (1 : Fin 2) * 128 + 1 * j.val = j.val; omega

theorem emb9 (t : Fin cfg0.N) : ((cfg0.win 9).blk t).view.emb (ix2 (0 : Fin 1) (0 : Fin 1)) = ix2 (0 : Fin 1) (0 : Fin 1) := by
  obtain ⟨-, -, -, -, -, -, -, -, -, -, -, -, e0, e1⟩ := idx_param t
  funext b; apply Fin.ext
  match b with
  | ⟨0, _⟩ => show win0_9.index t (0 : Fin 2) * 1 + 1 * 0 = 0; omega
  | ⟨1, _⟩ => show win0_9.index t (1 : Fin 2) * 1 + 1 * 0 = 0; omega

/-! ## A window's block of ANY array, read at an element -/

section Reads
variable (A0 A1 : S800000x128.Idx → EReal) (A2 : S800000x2.Idx → EReal) (A3 A4 : S128x128.Idx → EReal)
  (A5 A6 A7 A8 : S1x128.Idx → EReal) (A9 : S1x1.Idx → EReal)

theorem rd0 (t : Fin cfg0.N) (r : Fin 3200) (k : Fin 128) :
    ((cfg0.win 0).blk t).view.read (Elt Ideal) A0 (ix2 r k) = A0 (ix2 (edge t r) k) := by
  rw [View.read_apply, emb0 t r k]; rfl
theorem rd1 (t : Fin cfg0.N) (r : Fin 3200) (k : Fin 128) :
    ((cfg0.win 1).blk t).view.read (Elt Ideal) A1 (ix2 r k) = A1 (ix2 (edge t r) k) := by
  rw [View.read_apply, emb1 t r k]; rfl
theorem rd2 (t : Fin cfg0.N) (r : Fin 3200) (a : Fin 2) :
    ((cfg0.win 2).blk t).view.read (Elt Ideal) A2 (ix2 r a) = A2 (ix2 (edge t r) a) := by
  rw [View.read_apply, emb2 t r a]; rfl
theorem rd3 (t : Fin cfg0.N) (k j : Fin 128) :
    ((cfg0.win 3).blk t).view.read (Elt Ideal) A3 (ix2 k j) = A3 (ix2 k j) := by
  rw [View.read_apply, emb3 t k j]; rfl
theorem rd4 (t : Fin cfg0.N) (k j : Fin 128) :
    ((cfg0.win 4).blk t).view.read (Elt Ideal) A4 (ix2 k j) = A4 (ix2 k j) := by
  rw [View.read_apply, emb4 t k j]; rfl
theorem rd5 (t : Fin cfg0.N) (j : Fin 128) :
    ((cfg0.win 5).blk t).view.read (Elt Ideal) A5 (ix2 (0 : Fin 1) j) = A5 (ix2 (0 : Fin 1) j) := by
  rw [View.read_apply, emb5 t j]; rfl
theorem rd6 (t : Fin cfg0.N) (j : Fin 128) :
    ((cfg0.win 6).blk t).view.read (Elt Ideal) A6 (ix2 (0 : Fin 1) j) = A6 (ix2 (0 : Fin 1) j) := by
  rw [View.read_apply, emb6 t j]; rfl
theorem rd7 (t : Fin cfg0.N) (j : Fin 128) :
    ((cfg0.win 7).blk t).view.read (Elt Ideal) A7 (ix2 (0 : Fin 1) j) = A7 (ix2 (0 : Fin 1) j) := by
  rw [View.read_apply, emb7 t j]; rfl
theorem rd8 (t : Fin cfg0.N) (j : Fin 128) :
    ((cfg0.win 8).blk t).view.read (Elt Ideal) A8 (ix2 (0 : Fin 1) j) = A8 (ix2 (0 : Fin 1) j) := by
  rw [View.read_apply, emb8 t j]; rfl
theorem rd9 (t : Fin cfg0.N) :
    ((cfg0.win 9).blk t).view.read (Elt Ideal) A9 (ix2 (0 : Fin 1) (0 : Fin 1)) = A9 (ix2 (0 : Fin 1) (0 : Fin 1)) := by
  rw [View.read_apply, emb9 t]; rfl

end Reads

/-- THE BLOCK OF SCORES. Whatever blocks the ten input windows hand the body at point `t`, if they hold the gathered
    token rows, the coordinate differences of the point's edges and the slices of the parameters, the body's stored block
    at row `r` is the score of edge `3200 t + r`. -/
theorem block_score (T : S1x50000x128.Idx → EReal) (C : S1x50000x2.Idx → EReal) (E : S2x800000.Idx → BitVec 32)
    (W1 : S258x128.Idx → EReal) (B1 : S128.Idx → EReal) (W2 : S128x1.Idx → EReal) (B2 : S1.Idx → EReal)
    (t : Fin cfg0.N)
    (x0 x1 : Vec Ideal S3200x128 .f32) (x2 : Vec Ideal S3200x2 .f32) (x3 x4 : Vec Ideal S128x128 .f32)
    (x5 x6 x7 x8 : Vec Ideal S1x128 .f32) (x9 : Vec Ideal S1x1 .f32)
    (h0 : ∀ (r : Fin 3200) (k : Fin 128), x0 (ix2 r k) = T (ix3 0 (src E (edge t r)) k))
    (h1 : ∀ (r : Fin 3200) (k : Fin 128), x1 (ix2 r k) = T (ix3 0 (dst E (edge t r)) k))
    (h2 : ∀ (r : Fin 3200) (a : Fin 2), x2 (ix2 r a) = delta C E (edge t r) a)
    (h3 : ∀ k j : Fin 128, x3 (ix2 k j) = W1 (ix2 ⟨k.val, by omega⟩ j))
    (h4 : ∀ k j : Fin 128, x4 (ix2 k j) = W1 (ix2 ⟨128 + k.val, by omega⟩ j))
    (h5 : ∀ j : Fin 128, x5 (ix2 0 j) = W1 (ix2 ⟨256, by omega⟩ j))
    (h6 : ∀ j : Fin 128, x6 (ix2 0 j) = W1 (ix2 ⟨257, by omega⟩ j))
    (h7 : ∀ j : Fin 128, x7 (ix2 0 j) = B1 (ix1 j))
    (h8 : ∀ j : Fin 128, x8 (ix2 0 j) = W2 (ix2 j 0))
    (h9 : x9 (ix2 0 0) = B2 (ix1 0))
    (r : Fin 3200) :
    out0_10 (F := Ideal) x0 x1 x2 x3 x4 x5 x6 x7 x8 x9 (ix2 r 0) = score T C E W1 B1 W2 B2 (edge t r) := by
  rw [out_apply x0 x1 x2 x3 x4 x5 x6 x7 x8 x9 r]
  simp only [h0, h1, h2, h3, h4, h5, h6, h7, h8, h9]
  rfl

/-- What the output window cuts out of the body's buffer at point `t` is block `t` of an array `S`, once the buffer's
    row `r` is `S` at row `3200 t + r`. -/
theorem block_eq_abs (X : Vec Ideal S3200x1 .f32) (S : S800000x1.Idx → EReal) (t : Fin cfg0.N)
    (hX : ∀ r : Fin 3200, X (ix2 r 0) = S (ix2 (edge t r) 0)) :
    (cfg0.win 10).cut (grid0.coords t) X = ((cfg0.win 10).blk t).view.read (Elt Ideal) S := by
  funext y
  obtain ⟨r, rfl⟩ : ∃ r : Fin 3200, y = ix2 r (0 : Fin 1) :=
    ⟨y 0, (eq_ix2 (n0 := 3200) (n1 := 1) y).trans (congrArg (ix2 (y 0)) (Subsingleton.elim (α := Fin 1) _ _))⟩
  show X (ix2 r 0) = S (((cfg0.win 10).blk t).view.emb (ix2 r 0))
  rw [emb10 t r]; exact hX r

/-! ## The region's output array, the host tail, the run -/

open Cert.KernelIdeal.Staged

variable (m : (ℓ : Loc nD τ sig) → Buf (Elt Ideal) ℓ) (ρ : Dev nD → PrngReg) (c : Dev nD)

/-- The scores as the `[800000, 1]` array the region writes: row `e` holds edge `e`'s score. -/
def scores : S800000x1.Idx → EReal :=
  fun i => score (aT m c) (aC m c) (aE m c) (aW1 m c) (aB1 m c) (aW2 m c) (aB2 m c) (i 0)

/-- WHAT POINT `t` WRITES BACK is block `t` of the array of scores. -/
theorem flushed_eq (h : InRange (aE m c)) (t : Fin cfg0.N) :
    (dats m 0 c).flushed 10 t = ((cfg0.win 10).blk t).view.read (Elt Ideal) (scores m c) := by
  show (cfg0.win 10).cut (grid0.coords t) ((dats m 0 c).after 10 t) = _
  rw [after0_10]
  refine block_eq_abs (out0_10 (iblk m c 0 t) (iblk m c 1 t) (iblk m c 2 t) (iblk m c 3 t) (iblk m c 4 t) (iblk m c 5 t)
    (iblk m c 6 t) (iblk m c 7 t) (iblk m c 8 t) (iblk m c 9 t)) (scores m c) t (fun r => ?_)
  exact block_score (aT m c) (aC m c) (aE m c) (aW1 m c) (aB1 m c) (aW2 m c) (aB2 m c) t
    (iblk m c 0 t) (iblk m c 1 t) (iblk m c 2 t) (iblk m c 3 t) (iblk m c 4 t) (iblk m c 5 t)
    (iblk m c 6 t) (iblk m c 7 t) (iblk m c 8 t) (iblk m c 9 t)
    (fun r k => (rd0 (V m c (Pipeline.arrRef spec0 0)) t r k).trans (xsrc_apply m c h (edge t r) k))
    (fun r k => (rd1 (V m c (Pipeline.arrRef spec0 1)) t r k).trans (xdst_apply m c h (edge t r) k))
    (fun r a => (rd2 (V m c (Pipeline.arrRef spec0 2)) t r a).trans (delta_apply m c h (edge t r) a))
    (fun k j => (rd3 (V m c (Pipeline.arrRef spec0 3)) t k j).trans (w1src_apply m c k j))
    (fun k j => (rd4 (V m c (Pipeline.arrRef spec0 4)) t k j).trans (w1dst_apply m c k j))
    (fun j => (rd5 (V m c (Pipeline.arrRef spec0 5)) t j).trans (w1d0_apply m c j))
    (fun j => (rd6 (V m c (Pipeline.arrRef spec0 6)) t j).trans (w1d1_apply m c j))
    (fun j => (rd7 (V m c (Pipeline.arrRef spec0 7)) t j).trans (b1_apply m c j))
    (fun j => (rd8 (V m c (Pipeline.arrRef spec0 8)) t j).trans (w2_apply m c j))
    ((rd9 (V m c (Pipeline.arrRef spec0 9)) t).trans (b2_apply m c))
    r

/-- An index of the output array is in point `t`'s block iff each coordinate is in the block's range on its axis. -/
theorem mem_blk (t : Fin cfg0.N) (i : S800000x1.Idx) :
    i ∈ ((cfg0.win 10).blk t).view.set ↔ ∀ a : Fin 2, win0_10.index t a * S3200x1.size a ≤ (i a).val ∧ (i a).val < win0_10.index t a * S3200x1.size a + S3200x1.size a := by
  show i ∈ ((View.whole main_v18).slice (win0_10.rect t)).set ↔ _
  rw [View.set_slice_whole, Rect.mem_set_unit]
  exact Iff.rfl

/-- Every row of the output array lies in the block of the point that handles its edge: row `e` in block `e / 3200`. -/
theorem cover (i : S800000x1.Idx) :
    ∃ t : Fin cfg0.N, (cfg0.win 10).flush t = true ∧ i ∈ ((cfg0.win 10).blk t).view.set := by
  have hi0 : (i 0).val < 800000 := (i 0).isLt
  have hi1 : (i 1).val < 1 := (i 1).isLt
  have hN : cfg0.N = 250 := N_0
  have ht : (i 0).val / 3200 < cfg0.N := by omega
  refine ⟨⟨(i 0).val / 3200, ht⟩, flush0_10 _, ?_⟩
  rw [mem_blk]
  obtain ⟨-, -, -, -, -, -, e0, e1⟩ := idx_edge ⟨(i 0).val / 3200, ht⟩
  have e0' : win0_10.index ⟨(i 0).val / 3200, ht⟩ (0 : Fin 2) = (i 0).val / 3200 := e0
  intro a
  match a with
  | ⟨0, _⟩ =>
    show win0_10.index ⟨(i 0).val / 3200, ht⟩ (0 : Fin 2) * 3200 ≤ (i 0).val ∧ (i 0).val < win0_10.index ⟨(i 0).val / 3200, ht⟩ (0 : Fin 2) * 3200 + 3200
    omega
  | ⟨1, _⟩ =>
    show win0_10.index ⟨(i 0).val / 3200, ht⟩ (1 : Fin 2) * 1 ≤ (i 1).val ∧ (i 1).val < win0_10.index ⟨(i 0).val / 3200, ht⟩ (1 : Fin 2) * 1 + 1
    omega

/-- THE ARRAY after the region: the scores. -/
theorem final (h : InRange (aE m c)) : (dats m 0 c).arrAt 10 cfg0.N = scores m c :=
  (dats m 0 c).arrAt_eq_of_cover 10 (scores m c) (fun t _ => flushed_eq m c h t) cover

/-- THE RESULT: after the region the host reshapes the `[800000, 1]` array of scores to `[1, 800000, 1]`; entry
    `(0, e, 0)` is edge `e`'s score. -/
theorem tail_eq (h : InRange (aE m c)) :
    Pipeline.afterTail₀ cfgs (dats m) 0 (V0 m) [hostOps1] c main_v19
      = G (aT m c) (aC m c) (aE m c) (aW1 m c) (aB1 m c) (aW2 m c) (aB2 m c) := by
  have hw : Pipeline.withArrays (cfgs 0).spec c (V0 m c) (fun w => (dats m 0 c).arrAt w (cfgs 0).N) (Proc.tc.devRef main_v18)
      = scores m c :=
    (Pipeline.withArrays_arr spec0 launch0.win.arr_inj c (V0 m c) (fun w => (dats m 0 c).arrAt w cfg0.N) 10).trans (final m c h)
  unfold Pipeline.afterTail₀
  show StableHlo.after hostOps1 _ (Proc.devRef .tc main_v19) = _
  after_results
  funext j
  show shapeCast S1x800000x1 (Pipeline.withArrays (cfgs 0).spec c (V0 m c) (fun w => (dats m 0 c).arrAt w (cfgs 0).N)
    (Proc.tc.devRef main_v18)) shapeCasts_S800000x1_S1x800000x1 j = _
  rw [hw]
  refine (shapeCast_apply (scores m c) shapeCasts_S800000x1_S1x800000x1 j (ix2 (j 1) 0) ?_).trans rfl
  rewrite [Shape.rowMajor_val_two, Shape.rowMajor_val_three]
  have h0 : (j 0).val < 1 := (j 0).isLt
  have h2 : (j 2).val < 1 := (j 2).isLt
  show (j 1).val * 1 + 0 = ((j 0).val * 800000 + (j 1).val) * 1 + (j 2).val
  omega

/-- THE RUN, READ: where the index array is in range on every core, every weakly fair execution of the kernel's program
    ends with the result buffer holding the scores and the arguments unchanged. -/
theorem run (hE : ∀ c, InRange (aE m c)) :
    θ_run defs (onTc (τ := τ) (main (F := Ideal))) ⟨m, fun _ => 0, ρ⟩ (fun r => ∀ c : Dev nD,
      r.2.mem ((c.tc : Thread nD τ).loc main_v19) = G (aT m c) (aC m c) (aE m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v19 (Pipeline.mem_restRefs_of main_v19 (by decide) (by decide))).trans (tail_eq m c (hE c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.ScoreArray
end
-- ==== Proof.lean ====
/-
  The certificate of the edge-score kernel against its reference, over the extended reals.

  Both programs compute, for each of 800000 edges `e` with endpoints `s, d` (rows of the 50000-row token and coordinate
  tables named by the two rows of the index array), the number
      relu( [tokens[s], tokens[d], coords[d] - coords[s]] · W1 + b1 ) · W2 + b2 .
  The reference concatenates the 258 features and contracts them with `W1` in one product; the kernel gathers on the host,
  then per block of 3200 edges multiplies the two token parts by the two 128-row slices of `W1` on the matrix unit (its
  bf16 truncations are the identity on the extended reals), adds the two coordinate terms against rows 256 and 257, and
  reduces the rectified row against `W2` by a lane sum. The two first layers differ only in how a 258-term sum is
  grouped, which is a law of any commutative monoid: no finiteness is used.

  The statement's precondition carries, besides finiteness of the float inputs, the index array's evident domain
  `0 ≤ index < 50000`: outside it the reference's gather clamps the index while the kernel's take fills with a
  not-a-number, so only there are the programs the same function. Under it the take's bounds mask is all ones.

  Frames: the two kernel programs' are generated; the reference's is its generated run with the result dropped.
  `preserves` is trivial (the ideal pass rewrote nothing). `algebraic`: the kernel's run ends at the score array
  (Proof/ScoreArray.lean over Proof/BlockScore.lean, Proof/StagedGather.lean, Proof/StagedParams.lean), the reference's
  run at the same function of the same arguments (Proof/RefScore.lean), both stated with Proof/EdgeScore.lean's `G`.
-/
import proofs.«407230_j28398323761860_1_alg».proof.Defs
import proofs.«407230_j28398323761860_1_alg».proof.Proof.Gen.Kernel
import proofs.«407230_j28398323761860_1_alg».proof.Proof.Gen.Kernel.Frame
import proofs.«407230_j28398323761860_1_alg».proof.Proof.Gen.KernelIdeal
import proofs.«407230_j28398323761860_1_alg».proof.Proof.Gen.KernelIdeal.Frame
import proofs.«407230_j28398323761860_1_alg».proof.Proof.Gen.ReferenceIdeal
import proofs.«407230_j28398323761860_1_alg».proof.Proof.Gen.ReferenceIdeal.Run
import proofs.«407230_j28398323761860_1_alg».proof.Proof.Gen.ReferenceIdeal.Read
import proofs.«407230_j28398323761860_1_alg».proof.Proof.Gen.Pre_finite_inputs
import proofs.«407230_j28398323761860_1_alg».proof.Proof.PreDecode
import proofs.«407230_j28398323761860_1_alg».proof.Proof.RefScore
import proofs.«407230_j28398323761860_1_alg».proof.Proof.ScoreArray
import Idealize.ShloMosaic.Adequacy
import Idealize.ShloMosaic.Init

noncomputable section

namespace Cert.Proof

open Idealize.ShloMosaic Idealize.SL.Sem
open Cert.KernelIdeal.Staged

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, with the index array in range, both programs end with the edge scores. -/
theorem algebraic : Cert.algebraic_KernelIdeal_ReferenceIdeal := by
  intro m ρ m' ρ' hpre hagree
  have hE : ∀ c, Cert.EdgeScore.InRange (aE m c) := fun c =>
    Cert.EdgeScore.inRange_of_pre (aT m c) (aC m c) (aE m c) (aW1 m c) (aB1 m c) (aW2 m c) (aB2 m c) (hpre c)
  refine ⟨fun c => Cert.EdgeScore.G (aT m c) (aC m c) (aE m c) (aW1 m c) (aB1 m c) (aW2 m c) (aB2 m c),
    Cert.KernelIdeal.ScoreArray.run m ρ hE, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.RefScore.ref_eq]
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
